-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S100000x32 : Shape := ⟨2, ![100000, 32]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_

variable [Facts]

def fn {F : FTy → Type} [FloatOps F] (main_arg0 : FVec F S1024x100000 .f32) (main_arg1 : FVec F S100000x32 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  main_v8
-- ==== Kernel.lean ====
abbrev S1024x100000 : Shape := ⟨2, ![1024, 100000]⟩
abbrev S100000x32 : Shape := ⟨2, ![100000, 32]⟩
abbrev S100000x1024 : Shape := ⟨2, ![100000, 1024]⟩
abbrev S32x100000 : Shape := ⟨2, ![32, 100000]⟩
abbrev S7x32x1024 : Shape := ⟨3, ![7, 32, 1024]⟩
abbrev S32x2048 : Shape := ⟨2, ![32, 2048]⟩
abbrev S2048x1024 : Shape := ⟨2, ![2048, 1024]⟩
abbrev S1x32x1024 : Shape := ⟨3, ![1, 32, 1024]⟩
abbrev S32x1024 : Shape := ⟨2, ![32, 1024]⟩
abbrev S_ : Shape := ⟨0, ![]⟩
abbrev S1024x32 : Shape := ⟨2, ![1024, 32]⟩

abbrev nBuf : Space → Nat
  | .hbm => 8
  | .vmem => 6
  | .smem => 0
  | _ => 0

abbrev bufTy : (tb : Table) → Fin (tcTables nBuf tb) → BufTy
  | .hbm, ⟨0, _⟩ => ⟨S1024x100000, .f32⟩
  | .hbm, ⟨1, _⟩ => ⟨S100000x32, .f32⟩
  | .hbm, ⟨2, _⟩ => ⟨S100000x1024, .f32⟩
  | .hbm, ⟨3, _⟩ => ⟨S32x100000, .f32⟩
  | .hbm, ⟨4, _⟩ => ⟨S7x32x1024, .f32⟩
  | .hbm, ⟨5, _⟩ => ⟨S_, .f32⟩
  | .hbm, ⟨6, _⟩ => ⟨S32x1024, .f32⟩
  | .hbm, ⟨7, _⟩ => ⟨S1024x32, .f32⟩
  | .local _ .vmem, ⟨0, _⟩ => ⟨S32x2048, .f32⟩
  | .local _ .vmem, ⟨1, _⟩ => ⟨S32x2048, .f32⟩
  | .local _ .vmem, ⟨2, _⟩ => ⟨S2048x1024, .f32⟩
  | .local _ .vmem, ⟨3, _⟩ => ⟨S2048x1024, .f32⟩
  | .local _ .vmem, ⟨4, _⟩ => ⟨S1x32x1024, .f32⟩
  | .local _ .vmem, ⟨5, _⟩ => ⟨S1x32x1024, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 7], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c48_i32 : BitVec 32 := 48#32
  let v5 : BitVec 1 := Scalar.cmpi .slt v1 c48_i32
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c48_i32_2 : BitVec 32 := 48#32
  let v8 : BitVec 1 := Scalar.cmpi .eq v1 c48_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S1024x100000_S100000x1024_1_0 : S1024x100000.Transposes [1, 0] S100000x1024
  transposes_S100000x32_S32x100000_1_0 : S100000x32.Transposes [1, 0] S32x100000
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S32x1024_S1x32x1024 : S32x1024.ShapeCasts S1x32x1024
  iota_S32x2048_d1_w32 : S32x2048.Iotas .tc 32 [1]
  iota_S2048x1024_d0_w32 : S2048x1024.Iotas .tc 32 [0]
  reducesTo_S7x32x1024_S32x1024_d0 : S7x32x1024.ReducesTo [0] S32x1024
  h_S_ : 0 < S_.numel
  transposes_S32x1024_S1024x32_1_0 : S32x1024.Transposes [1, 0] S1024x32
  dot_S32x2048_S2048x1024_S32x1024_1_0_0_1_n_n_wf : DotDims.WF S32x2048 S2048x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x2048.size a < S32x100000.size a
  hwx0_0 : ∀ i : grid0.Coords, EltTy.bits .f32 = 32 ∨ (Rect.unit (s := S32x100000) (fun a => cc0_transform_0 i a * S32x2048.size a) (fun a => (Pipeline.Clip.of (cc0_transform_0 i a) (S32x2048.size a) (S32x100000.size a)).extent (S32x2048.size a)) fun a => Pipeline.Clip.inb (Pipeline.Clip.ok_of (hstart0_0 i a))).WholeWords (EltTy.packing .f32)
  hwxs0_0 : ∀ i : grid0.Coords, EltTy.bits .f32 = 32 ∨ (Rect.unit (s := S32x2048) (fun _ => 0) (fun a => (Pipeline.Clip.of (cc0_transform_0 i a) (S32x2048.size a) (S32x100000.size a)).extent (S32x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S100000x1024.size a
  hwx0_1 : ∀ i : grid0.Coords, EltTy.bits .f32 = 32 ∨ (Rect.unit (s := S100000x1024) (fun a => cc0_transform_1 i a * S2048x1024.size a) (fun a => (Pipeline.Clip.of (cc0_transform_1 i a) (S2048x1024.size a) (S100000x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S100000x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1024.size a ≤ S7x32x1024.size a
  hwx0_2 : ∀ i : grid0.Coords, EltTy.bits .f32 = 32 ∨ (Rect.block (s := S7x32x1024) S1x32x1024.size (cc0_transform_2 i) (hinb0_2 i)).WholeWords (EltTy.packing .f32)

variable [Facts₀]

def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf

abbrev win0_0 : Pipeline.Window sig grid0 :=
  Pipeline.Window.ofSpecClip (Memref.whole main_v1) S32x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S1x32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S1024x100000 : Shape := ⟨2, ![1024, 100000]⟩
abbrev S100000x32 : Shape := ⟨2, ![100000, 32]⟩
abbrev S1024x32 : Shape := ⟨2, ![1024, 32]⟩

abbrev nBuf : Space → Nat
  | .hbm => 3
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S100000x32, .f32⟩
  | .hbm, ⟨2, _⟩ => ⟨S1024x32, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x100000_S100000x32_S1024x32_1_0_0_1_n_n_wf : DotDims.WF S1024x100000 S100000x32 S1024x32 [1] [0] [0] [1] [] []

variable [Facts₀]

def dot_S1024x100000_S100000x32_S1024x32_1_0_0_1_n_n : DotDims S1024x100000 S100000x32 S1024x32 where
  lhsContracting := [1]
  rhsContracting := [0]
  lhsNonContracting := [0]
  rhsNonContracting := [1]
  lhsBatch := []
  rhsBatch := []
  wf := dot_S1024x100000_S100000x32_S1024x32_1_0_0_1_n_n_wf

class Facts : Prop extends Facts₀ where

variable [Facts]
-- ==== Proof.K.Runs.lean ====
/-
  The kernel body, run once per control case, on any whole staging memrefs and any contents of the two input
  buffers. The body's three conditionals depend on the grid point only: with k = 7 * p + kk the block index along
  the contraction axis, the first (kk = 0) zeroes the output block, the second (k < 48) adds the product of the two
  input blocks to it, the third (k = 48, the last block, which runs past the arrays' end) adds the product of the
  two blocks with everything from position 1696 on replaced by zero. Three assignments of the conditions occur
  on the grid: reset-and-add (A), add (B), masked add (C). In each the output's staging buffer ends holding one
  payload of the skeleton, applied to what the input buffers hold and (B, C) to what the output buffer held.
-/
import proofs.«109520_g74792560493228_cont_9to1c4b_67_8_alg».proof.Proof.Gen.Kernel.Launch
import proofs.«109520_g74792560493228_cont_9to1c4b_67_8_alg».proof.Proof.Gen.Kernel.Skeleton
import proofs.«109520_g74792560493228_cont_9to1c4b_67_8_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body run in one control case: on whole staging memrefs holding `x0`, `x1` (and the output's at what the case
    finds there) the body runs to the continuation with the inputs' buffers as they were and the output's with the
    listed pieces written. -/
noncomputable def runA (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : k0_cond1 i = 1#1) (h2 : k0_cond2 i = 1#1) (h3 : ¬k0_cond3 i = 1#1)
    (x0 : Vec F S32x2048 .f32) (x1 : Vec F S2048x1024 .f32) :
    { L : List (View.Piece (Elt F) S1x32x1024 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__mm_kernel i arg2 harg2 arg3 harg3 arg4 harg4) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body run in one control case: on whole staging memrefs holding `x0`, `x1` (and the output's at what the case
    finds there) the body runs to the continuation with the inputs' buffers as they were and the output's with the
    listed pieces written. -/
noncomputable def runB (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : k0_cond2 i = 1#1) (h3 : ¬k0_cond3 i = 1#1)
    (x0 : Vec F S32x2048 .f32) (x1 : Vec F S2048x1024 .f32) (xo : Vec F S1x32x1024 .f32) :
    { L : List (View.Piece (Elt F) S1x32x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__mm_kernel i arg2 harg2 arg3 harg3 arg4 harg4) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body run in one control case: on whole staging memrefs holding `x0`, `x1` (and the output's at what the case
    finds there) the body runs to the continuation with the inputs' buffers as they were and the output's with the
    listed pieces written. -/
noncomputable def runC (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : ¬k0_cond2 i = 1#1) (h3 : k0_cond3 i = 1#1)
    (x0 : Vec F S32x2048 .f32) (x1 : Vec F S2048x1024 .f32) (xo : Vec F S1x32x1024 .f32) :
    { L : List (View.Piece (Elt F) S1x32x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__mm_kernel i arg2 harg2 arg3 harg3 arg4 harg4) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- Case A's one covering store tiles the output block. -/
theorem coverA (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : k0_cond1 i = 1#1) (h2 : k0_cond2 i = 1#1) (h3 : ¬k0_cond3 i = 1#1) (x0 : Vec F S32x2048 .f32) (x1 : Vec F S2048x1024 .f32) (y : S1x32x1024.Idx) :
    ∃ pc ∈ (runA c i arg2 harg2 arg3 harg3 arg4 harg4 h1 h2 h3 x0 x1).1, y ∈ pc.1.set :=
  View.cover_of_tiledL (runA c i arg2 harg2 arg3 harg3 arg4 harg4 h1 h2 h3 x0 x1).1 S1x32x1024.size (by sl_kernel_rfl) y

/-- Case A: the zero block is stored, read back, and the product of the input blocks added to it. -/
theorem canonA (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : k0_cond1 i = 1#1) (h2 : k0_cond2 i = 1#1) (h3 : ¬k0_cond3 i = 1#1) (x0 : Vec F S32x2048 .f32) (x1 : Vec F S2048x1024 .f32) :
    View.canon (runA c i arg2 harg2 arg3 harg3 arg4 harg4 h1 h2 h3 x0 x1).1 = k0_pay2 k0_pay1 x0 x1 := by
  have hz3 : (![0, 0, 0] : Fin 3 → Nat) = fun _ => 0 := funext fun a => by fin_cases a <;> rfl
  have hz2 : (![0, 0] : Fin 2 → Nat) = fun _ => 0 := funext fun a => by fin_cases a <;> rfl
  unfold runA; dsimp only; sl_unfold_words
  rw [View.canon_cons_unit_zero (S := S1x32x1024) hz3]
  simp only [View.readAt_eq_ld, harg2.read_unread, harg3.read_unread, harg4.read_unread,
    View.ld_unit_zero (S := S32x2048) hz2, View.ld_unit_zero (S := S2048x1024) hz2, View.ld_unit_zero (S := S1x32x1024) hz3,
    View.readCov_unit_zero (S := S1x32x1024) _ hz3]

/-- The body in case A, with the output's staging buffer left at the case's payload. -/
theorem bodyA (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : k0_cond1 i = 1#1) (h2 : k0_cond2 i = 1#1) (h3 : ¬k0_cond3 i = 1#1) (x0 : Vec F S32x2048 .f32) (x1 : Vec F S2048x1024 .f32) (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay2 k0_pay1 x0 x1)) -∗ K ⟨⟩))
      ⊢ wp frame (wpE (defs₀ (F := F)) Variants.none c none) E (cc0__mm_kernel i arg2 harg2 arg3 harg3 arg4 harg4) K := by
  iintro ⟨H0, H1, H2, Hk⟩
  iapply ((runA c i arg2 harg2 arg3 harg3 arg4 harg4 h1 h2 h3 x0 x1).2 E K)
  isplitl [H0]; · iexact H0
  isplitl [H1]; · iexact H1
  isplitl [H2]; · iexact H2
  iintro ⟨H0, H1, ⟨%e, H2⟩⟩
  iapply Hk
  isplitl [H0]; · iexact H0
  isplitl [H1]; · iexact H1
  unfold owns; iexists _; isplitr
  swap; · iexact H2
  ipureintro
  rw [View.read_writes_eq_canon _ _ _ (coverA c i arg2 harg2 arg3 harg3 arg4 harg4 h1 h2 h3 x0 x1)]
  exact canonA c i arg2 harg2 arg3 harg3 arg4 harg4 h1 h2 h3 x0 x1

/-- Case B's one covering store tiles the output block. -/
theorem coverB (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : k0_cond2 i = 1#1) (h3 : ¬k0_cond3 i = 1#1) (x0 : Vec F S32x2048 .f32) (x1 : Vec F S2048x1024 .f32) (xo : Vec F S1x32x1024 .f32) (y : S1x32x1024.Idx) :
    ∃ pc ∈ (runB c i arg2 harg2 arg3 harg3 arg4 harg4 h1 h2 h3 x0 x1 xo).1, y ∈ pc.1.set :=
  View.cover_of_tiledL (runB c i arg2 harg2 arg3 harg3 arg4 harg4 h1 h2 h3 x0 x1 xo).1 S1x32x1024.size (by sl_kernel_rfl) y

/-- Case B: the product of the input blocks is added to what the output buffer held. -/
theorem canonB (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : k0_cond2 i = 1#1) (h3 : ¬k0_cond3 i = 1#1) (x0 : Vec F S32x2048 .f32) (x1 : Vec F S2048x1024 .f32) (xo : Vec F S1x32x1024 .f32) :
    View.canon (runB c i arg2 harg2 arg3 harg3 arg4 harg4 h1 h2 h3 x0 x1 xo).1 = k0_pay2 xo x0 x1 := by
  have hz3 : (![0, 0, 0] : Fin 3 → Nat) = fun _ => 0 := funext fun a => by fin_cases a <;> rfl
  have hz2 : (![0, 0] : Fin 2 → Nat) = fun _ => 0 := funext fun a => by fin_cases a <;> rfl
  unfold runB; dsimp only; sl_unfold_words
  rw [View.canon_unit_zero (S := S1x32x1024) hz3]
  simp only [View.readAt_eq_ld, harg2.read_unread, harg3.read_unread, harg4.read_unread,
    View.ld_unit_zero (S := S32x2048) hz2, View.ld_unit_zero (S := S2048x1024) hz2, View.ld_unit_zero (S := S1x32x1024) hz3,
    View.readCov_unit_zero (S := S1x32x1024) _ hz3]

/-- The body in case B, with the output's staging buffer left at the case's payload. -/
theorem bodyB (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : k0_cond2 i = 1#1) (h3 : ¬k0_cond3 i = 1#1) (x0 : Vec F S32x2048 .f32) (x1 : Vec F S2048x1024 .f32) (xo : Vec F S1x32x1024 .f32) (E : Set ℕ) (K : PUnit → sProp 𝕄) :
    iprop(owns (c : Thread nD τ) arg2 fullShare x0 ∗ owns (c : Thread nD τ) arg3 fullShare x1
        ∗ owns (c : Thread nD τ) arg4 fullShare xo
        ∗ (iprop(owns (c : Thread nD τ) arg2 fullShare x0 ∗ owns (c : Thread nD τ) arg3 fullShare x1
            ∗ owns (c : Thread nD τ) arg4 fullShare (k0_pay2 xo x0 x1)) -∗ K ⟨⟩))
      ⊢ wp frame (wpE (defs₀ (F := F)) Variants.none c none) E (cc0__mm_kernel i arg2 harg2 arg3 harg3 arg4 harg4) K := by
  iintro ⟨H0, H1, H2, Hk⟩
  iapply ((runB c i arg2 harg2 arg3 harg3 arg4 harg4 h1 h2 h3 x0 x1 xo).2 E K)
  isplitl [H0]; · iexact H0
  isplitl [H1]; · iexact H1
  isplitl [H2]; · iexact H2
  iintro ⟨H0, H1, ⟨%e, H2⟩⟩
  iapply Hk
  isplitl [H0]; · iexact H0
  isplitl [H1]; · iexact H1
  unfold owns; iexists _; isplitr
  swap; · iexact H2
  ipureintro
  rw [View.read_writes_eq_canon _ _ _ (coverB c i arg2 harg2 arg3 harg3 arg4 harg4 h1 h2 h3 x0 x1 xo)]
  exact canonB c i arg2 harg2 arg3 harg3 arg4 harg4 h1 h2 h3 x0 x1 xo

/-- Case C's one covering store tiles the output block. -/
theorem coverC (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : ¬k0_cond2 i = 1#1) (h3 : k0_cond3 i = 1#1) (x0 : Vec F S32x2048 .f32) (x1 : Vec F S2048x1024 .f32) (xo : Vec F S1x32x1024 .f32) (y : S1x32x1024.Idx) :
    ∃ pc ∈ (runC c i arg2 harg2 arg3 harg3 arg4 harg4 h1 h2 h3 x0 x1 xo).1, y ∈ pc.1.set :=
  View.cover_of_tiledL (runC c i arg2 harg2 arg3 harg3 arg4 harg4 h1 h2 h3 x0 x1 xo).1 S1x32x1024.size (by sl_kernel_rfl) y

/-- Case C: the product of the masked input blocks is added to what the output buffer held. -/
theorem canonC (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : ¬k0_cond2 i = 1#1) (h3 : k0_cond3 i = 1#1) (x0 : Vec F S32x2048 .f32) (x1 : Vec F S2048x1024 .f32) (xo : Vec F S1x32x1024 .f32) :
    View.canon (runC c i arg2 harg2 arg3 harg3 arg4 harg4 h1 h2 h3 x0 x1 xo).1 = k0_pay3 x0 x1 xo := by
  have hz3 : (![0, 0, 0] : Fin 3 → Nat) = fun _ => 0 := funext fun a => by fin_cases a <;> rfl
  have hz2 : (![0, 0] : Fin 2 → Nat) = fun _ => 0 := funext fun a => by fin_cases a <;> rfl
  unfold runC; dsimp only; sl_unfold_words
  rw [View.canon_unit_zero (S := S1x32x1024) hz3]
  simp only [View.readAt_eq_ld, harg2.read_unread, harg3.read_unread, harg4.read_unread,
    View.ld_unit_zero (S := S32x2048) hz2, View.ld_unit_zero (S := S2048x1024) hz2, View.ld_unit_zero (S := S1x32x1024) hz3,
    View.readCov_unit_zero (S := S1x32x1024) _ hz3]

/-- The body in case C, with the output's staging buffer left at the case's payload. -/
theorem bodyC (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : ¬k0_cond2 i = 1#1) (h3 : k0_cond3 i = 1#1) (x0 : Vec F S32x2048 .f32) (x1 : Vec F S2048x1024 .f32) (xo : Vec F S1x32x1024 .f32) (E : Set ℕ) (K : PUnit → sProp 𝕄) :
    iprop(owns (c : Thread nD τ) arg2 fullShare x0 ∗ owns (c : Thread nD τ) arg3 fullShare x1
        ∗ owns (c : Thread nD τ) arg4 fullShare xo
        ∗ (iprop(owns (c : Thread nD τ) arg2 fullShare x0 ∗ owns (c : Thread nD τ) arg3 fullShare x1
            ∗ owns (c : Thread nD τ) arg4 fullShare (k0_pay3 x0 x1 xo)) -∗ K ⟨⟩))
      ⊢ wp frame (wpE (defs₀ (F := F)) Variants.none c none) E (cc0__mm_kernel i arg2 harg2 arg3 harg3 arg4 harg4) K := by
  iintro ⟨H0, H1, H2, Hk⟩
  iapply ((runC c i arg2 harg2 arg3 harg3 arg4 harg4 h1 h2 h3 x0 x1 xo).2 E K)
  isplitl [H0]; · iexact H0
  isplitl [H1]; · iexact H1
  isplitl [H2]; · iexact H2
  iintro ⟨H0, H1, ⟨%e, H2⟩⟩
  iapply Hk
  isplitl [H0]; · iexact H0
  isplitl [H1]; · iexact H1
  unfold owns; iexists _; isplitr
  swap; · iexact H2
  ipureintro
  rw [View.read_writes_eq_canon _ _ _ (coverC c i arg2 harg2 arg3 harg3 arg4 harg4 h1 h2 h3 x0 x1 xo)]
  exact canonC c i arg2 harg2 arg3 harg3 arg4 harg4 h1 h2 h3 x0 x1 xo

end Cert.Kernel.Body

end
-- ==== Proof.K.Tail.lean ====
/- The masked last block of the contraction axis. On that block only the first 1696 of the 2048
   positions along the contracted axis lie inside the arrays; the payload of the last step zeroes
   both operands past position 1696 (a select on an iota compared with 1696) before the product.
   So the last step's payload at operands (x0, x1) is the ordinary step's payload at the operands
   with zeros written at the positions ≥ 1696 — whatever x0 and x1 hold there. Nothing here uses a
   property of float arithmetic: select, iota, cmpi, broadcast and a same-shape shape_cast are
   pointwise or structural, so the statement holds at every float instance. -/
import proofs.«109520_g74792560493228_cont_9to1c4b_67_8_alg».proof.Proof.Gen.Kernel.Skeleton
import Idealize.ShloMosaic.Lib.ValueIdx
import Idealize.ShloMosaic.Lib.Pipeline.Value

noncomputable section

namespace Cert.Kernel.Body

open Cert.Kernel Cert.Kernel.Gen Idealize.ShloMosaic

variable {F : FTy → Type} [FloatOps F]

/-- For a position n below 2048, the signed 32-bit comparison of the word of n with 1696 is n < 1696:
    both words are non-negative as signed integers and equal to their naturals. A select on that
    comparison is the `if` on n < 1696. -/
theorem select_slt_1696 {α : Type} (n : Nat) (hn : n < 2048) (a b : α) :
    Scalar.select (IntOp.cmpi .slt (BitVec.ofNat 32 n) 1696#32) a b = if n < 1696 then a else b := by
  have hs : (BitVec.ofNat 32 n).slt 1696#32 = decide (n < 1696) := by
    rw [Bool.eq_iff_iff, BitVec.slt_iff_toInt_lt, decide_eq_true_iff, BitVec.toInt_eq_toNat_cond,
      BitVec.toInt_eq_toNat_cond, BitVec.toNat_ofNat, BitVec.toNat_ofNat]
    have h1 : n % 2 ^ 32 = n := Nat.mod_eq_of_lt (by omega)
    rw [h1]
    norm_num
    omega
  unfold Scalar.select IntOp.cmpi
  simp only [hs]
  by_cases h : n < 1696 <;> simp [h]

/-- The left operand masked along axis 1: the select on (iota along axis 1) < 1696 between x0 and
    the zero word is x0 with zeros written at the columns ≥ 1696. -/
theorem mask_left (x0 x0z : Vec F S32x2048 .f32)
    (h0 : ∀ j : S32x2048.Idx, x0z j = if (j 1).val < 1696 then x0 j else Scalar.ofBits .f32 0x00000000#32) :
    select (cmpi .slt (iota .tc S32x2048 32 [1] iota_S32x2048_d1_w32) (broadcast S32x2048 1696#32))
        (shapeCast S32x2048 x0 shapeCasts_S32x2048_S32x2048)
        (broadcast S32x2048 (Scalar.ofBits .f32 0x00000000#32 : F .f32))
      = shapeCast S32x2048 x0z shapeCasts_S32x2048_S32x2048 := by
  rw [shapeCast_self, shapeCast_self]
  funext j
  rw [ValueIdx.select_apply, h0 j]
  show Scalar.select (IntOp.cmpi .slt (iota .tc S32x2048 32 [1] iota_S32x2048_d1_w32 j) 1696#32) (x0 j) _ = _
  rw [iota_single_apply]
  exact select_slt_1696 (j 1).val (j 1).isLt _ _

/-- The right operand masked along axis 0: the select on (iota along axis 0) < 1696 between x1 and
    the zero word is x1 with zeros written at the rows ≥ 1696. -/
theorem mask_right (x1 x1z : Vec F S2048x1024 .f32)
    (h1 : ∀ j : S2048x1024.Idx, x1z j = if (j 0).val < 1696 then x1 j else Scalar.ofBits .f32 0x00000000#32) :
    select (cmpi .slt (iota .tc S2048x1024 32 [0] iota_S2048x1024_d0_w32) (broadcast S2048x1024 1696#32))
        (shapeCast S2048x1024 x1 shapeCasts_S2048x1024_S2048x1024)
        (broadcast S2048x1024 (Scalar.ofBits .f32 0x00000000#32 : F .f32))
      = shapeCast S2048x1024 x1z shapeCasts_S2048x1024_S2048x1024 := by
  rw [shapeCast_self, shapeCast_self]
  funext j
  rw [ValueIdx.select_apply, h1 j]
  show Scalar.select (IntOp.cmpi .slt (iota .tc S2048x1024 32 [0] iota_S2048x1024_d0_w32 j) 1696#32) (x1 j) _ = _
  rw [iota_single_apply]
  exact select_slt_1696 (j 0).val (j 0).isLt _ _

/-- The last step's payload at (x0, x1) is the ordinary step's payload at the operands with zeros
    written past position 1696 of the contracted axis. -/
theorem pay3_eq_pay2 (x0 x0z : Vec F S32x2048 .f32) (x1 x1z : Vec F S2048x1024 .f32) (xo : Vec F S1x32x1024 .f32)
    (h0 : ∀ j : S32x2048.Idx, x0z j = if (j 1).val < 1696 then x0 j else Scalar.ofBits .f32 0x00000000#32)
    (h1 : ∀ j : S2048x1024.Idx, x1z j = if (j 0).val < 1696 then x1 j else Scalar.ofBits .f32 0x00000000#32) :
    k0_pay3 (F := F) x0 x1 xo = k0_pay2 (F := F) xo x0z x1z := by
  unfold k0_pay3 k0_pay2
  simp only []
  rw [mask_left x0 x0z h0, mask_right x1 x1z h1]

end Cert.Kernel.Body

end
-- ==== Proof.K.Data.lean ====
/-
  The proof data of the one pipeline and its body obligation. The grid has 49 points t = 7 * p + kk; point t
  stages block t of the contraction axis of both operands (2048 positions; block 48 runs 352 positions past the
  arrays' end, and what the staging buffers hold there nothing names) and accumulates into output block p, which is
  written back at kk = 6. After the body at point t the output's staging buffer holds `acc t`: the product of the
  two zero-continued operand blocks added to the zero block (kk = 0) or to `acc (t - 1)` (kk > 0). Zero-continued:
  the block inside the arrays and zeros past their end. At the last point the body itself replaces everything past
  position 1696 by zero in both operands, so what it adds is the product of the zero-continued blocks there too,
  whatever the buffers held past the arrays' end. The input buffers are only read: they are handed back as found.
-/
import proofs.«109520_g74792560493228_cont_9to1c4b_67_8_alg».proof.Proof.K.Runs
import proofs.«109520_g74792560493228_cont_9to1c4b_67_8_alg».proof.Proof.K.Tail
import proofs.«109520_g74792560493228_cont_9to1c4b_67_8_alg».proof.Proof.Gen.Kernel.Frame
import Idealize.ShloMosaic.Lib.Pipeline.Frame
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond1 : ∀ t : Fin cfg0.N, k0_cond1 (grid0.coords t) = 1#1 ↔ t.val % 7 = 0 :=
  (by decide +kernel : ∀ t : Fin grid0.N, k0_cond1 (grid0.coords t) = 1#1 ↔ t.val % 7 = 0)
theorem hcond2 : ∀ t : Fin cfg0.N, k0_cond2 (grid0.coords t) = 1#1 ↔ t.val < 48 :=
  (by decide +kernel : ∀ t : Fin grid0.N, k0_cond2 (grid0.coords t) = 1#1 ↔ t.val < 48)
theorem hcond3 : ∀ t : Fin cfg0.N, k0_cond3 (grid0.coords t) = 1#1 ↔ t.val = 48 :=
  (by decide +kernel : ∀ t : Fin grid0.N, k0_cond3 (grid0.coords t) = 1#1 ↔ t.val = 48)
theorem idle_live : ∀ i : grid0.Coords, cfg0.idle 2 i = false :=
  (by decide +kernel : ∀ i : grid0.Coords, idle0 2 i = false)
theorem clip0_none : ∀ t : Fin cfg0.N, t.val < 48 → ∀ a, (cfg0.win 0).clip (cfg0.grid.coords t) a = none :=
  (by decide +kernel : ∀ t : Fin grid0.N, t.val < 48 → ∀ a, win0_0.clip (grid0.coords t) a = none)
theorem clip1_none : ∀ t : Fin cfg0.N, t.val < 48 → ∀ a, (cfg0.win 1).clip (cfg0.grid.coords t) a = none :=
  (by decide +kernel : ∀ t : Fin grid0.N, t.val < 48 → ∀ a, win0_1.clip (grid0.coords t) a = none)
theorem xsize0_last : ∀ t : Fin cfg0.N, t.val = 48 → win0_0.xsize (grid0.coords t) 0 = 32 ∧ win0_0.xsize (grid0.coords t) 1 = 1696 :=
  (by decide +kernel : ∀ t : Fin grid0.N, t.val = 48 → win0_0.xsize (grid0.coords t) 0 = 32 ∧ win0_0.xsize (grid0.coords t) 1 = 1696)
theorem xsize1_last : ∀ t : Fin cfg0.N, t.val = 48 → win0_1.xsize (grid0.coords t) 0 = 1696 ∧ win0_1.xsize (grid0.coords t) 1 = 1024 :=
  (by decide +kernel : ∀ t : Fin grid0.N, t.val = 48 → win0_1.xsize (grid0.coords t) 0 = 1696 ∧ win0_1.xsize (grid0.coords t) 1 = 1024)

/-- the zero word -/
abbrev zw : Elt F .f32 := Scalar.ofBits .f32 0x00000000#32

def Mz (c : Dev nD) (t : Fin cfg0.N) : Vec F S32x2048 .f32 :=
  win0_0.fill (grid0.coords t) (fun _ => zw) (iblk m c 0 t)
def Xz (c : Dev nD) (t : Fin cfg0.N) : Vec F S2048x1024 .f32 :=
  win0_1.fill (grid0.coords t) (fun _ => zw) (iblk m c 1 t)

def acc (c : Dev nD) : (n : ℕ) → n < cfg0.N → Vec F S1x32x1024 .f32
  | 0, hn => k0_pay2 k0_pay1 (Mz m c ⟨0, hn⟩) (Xz m c ⟨0, hn⟩)
  | n + 1, hn =>
    if (n + 1) % 7 = 0 then k0_pay2 k0_pay1 (Mz m c ⟨n + 1, hn⟩) (Xz m c ⟨n + 1, hn⟩)
    else k0_pay2 (acc c n (Nat.lt_of_succ_lt hn)) (Mz m c ⟨n + 1, hn⟩) (Xz m c ⟨n + 1, hn⟩)

theorem acc_reset (c : Dev nD) (t : Fin cfg0.N) (h : t.val % 7 = 0) :
    acc m c t.val t.isLt = k0_pay2 k0_pay1 (Mz m c t) (Xz m c t) := by
  obtain ⟨n, hn⟩ := t
  cases n with
  | zero => rfl
  | succ n => exact if_pos h

theorem acc_step (c : Dev nD) (t : Fin cfg0.N) (h : ¬t.val % 7 = 0) :
    acc m c t.val t.isLt = k0_pay2 (acc m c (t.val - 1) (Nat.lt_of_le_of_lt (Nat.sub_le _ _) t.isLt)) (Mz m c t) (Xz m c t) := by
  obtain ⟨n, hn⟩ := t
  cases n with
  | zero => exact absurd (Nat.zero_mod _) h
  | succ n => exact if_neg h

def dats (_ : Fin 1) (c : Dev nD) : Dat τ (Elt F) Unit ℕ (UR sig nD τ) ℕ cfg0 c where
  A w := V m c (Pipeline.arrRef spec0 w)
  after w t := match w with
    | ⟨0, _⟩ => Mz m c t
    | ⟨1, _⟩ => Xz m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = Mz m c t := by dsimp only [dats]
theorem after_1 (c : Dev nD) (t : Fin cfg0.N) : (dats m 0 c).after 1 t = Xz m c t := by dsimp only [dats]
theorem after_2 (c : Dev nD) (t : Fin cfg0.N) : (dats m 0 c).after 2 t = acc m c t.val t.isLt := by dsimp only [dats]

theorem before_0 (c : Dev nD) (t : Fin cfg0.N) (d) :
    (dats m 0 c).before 0 t d = win0_0.fill (grid0.coords t) d (iblk m c 0 t) := by
  rw [Dat.before_fetched _ 0 t (fetch0_0 t)]; rfl
theorem before_1 (c : Dev nD) (t : Fin cfg0.N) (d) :
    (dats m 0 c).before 1 t d = win0_1.fill (grid0.coords t) d (iblk m c 1 t) := by
  rw [Dat.before_fetched _ 1 t (fetch0_1 t)]; rfl
theorem before_2 (c : Dev nD) (t : Fin cfg0.N) (h : ¬t.val % 7 = 0) (d) :
    (dats m 0 c).before 2 t d = acc m c (t.val - 1) (Nat.lt_of_le_of_lt (Nat.sub_le _ _) t.isLt) := by
  have hN : t.val < 49 := lt_of_lt_of_eq t.isLt (show cfg0.N = 49 from N_0)
  rw [Dat.before_out_kept _ 2 rfl t (by omega) (Bool.eq_false_iff.mpr fun hf => by have := (flush0_2 _).mp hf; dsimp only at this; omega)
    idle_live (fun _ _ => rfl)]
  dsimp only [dats]

/-! ## What the input buffers hold, whatever was there before the fetch -/

/-- Away from the last block the fetch fills the whole buffer: nothing of the earlier contents is left. -/
theorem fill0_uncut (c : Dev nD) (t : Fin cfg0.N) (ht : t.val < 48) (d) :
    win0_0.fill (grid0.coords t) d (iblk m c 0 t) = Mz m c t :=
  Pipeline.fill_of_clip_none (cfg := cfg0) 0 (grid0.coords t) (clip0_none t ht) d (fun _ => zw) (iblk m c 0 t)
theorem fill1_uncut (c : Dev nD) (t : Fin cfg0.N) (ht : t.val < 48) (d) :
    win0_1.fill (grid0.coords t) d (iblk m c 1 t) = Xz m c t :=
  Pipeline.fill_of_clip_none (cfg := cfg0) 1 (grid0.coords t) (clip1_none t ht) d (fun _ => zw) (iblk m c 1 t)

/-- At the last block the fetch fills columns 0‥1695 of window 0's buffer: the zero-continued block is the buffer
    with zeros from column 1696 on, whatever the buffer held there. -/
theorem Mz_last (c : Dev nD) (t : Fin cfg0.N) (ht : t.val = 48) (d) (j : S32x2048.Idx) :
    Mz m c t j = if (j 1).val < 1696 then win0_0.fill (grid0.coords t) d (iblk m c 0 t) j else zw := by
  obtain ⟨h0, h1⟩ := xsize0_last t ht
  unfold Mz Window.fill
  by_cases hm : win0_0.moved (grid0.coords t) j = true
  · have h := (win0_0.moved_iff _ j).mp hm 1
    rw [h1] at h
    rw [dif_pos hm, dif_pos hm, if_pos h]
  · have hn : ¬(j 1).val < 1696 := fun hlt => hm ((win0_0.moved_iff _ j).mpr fun a => by
      match a with
      | ⟨0, _⟩ => exact lt_of_lt_of_eq (j 0).isLt h0.symm
      | ⟨1, _⟩ => exact lt_of_lt_of_eq hlt h1.symm)
    rw [dif_neg hm, if_neg hn]
/-- Likewise rows 0‥1695 of window 1's buffer. -/
theorem Xz_last (c : Dev nD) (t : Fin cfg0.N) (ht : t.val = 48) (d) (j : S2048x1024.Idx) :
    Xz m c t j = if (j 0).val < 1696 then win0_1.fill (grid0.coords t) d (iblk m c 1 t) j else zw := by
  obtain ⟨h0, h1⟩ := xsize1_last t ht
  unfold Xz Window.fill
  by_cases hm : win0_1.moved (grid0.coords t) j = true
  · have h := (win0_1.moved_iff _ j).mp hm 0
    rw [h0] at h
    rw [dif_pos hm, dif_pos hm, if_pos h]
  · have hn : ¬(j 0).val < 1696 := fun hlt => hm ((win0_1.moved_iff _ j).mpr fun a => by
      match a with
      | ⟨0, _⟩ => exact lt_of_lt_of_eq hlt h0.symm
      | ⟨1, _⟩ => exact lt_of_lt_of_eq (j 1).isLt h1.symm)
    rw [dif_neg hm, if_neg hn]

/-! ## The body obligation -/

abbrev ms0 (t : Fin cfg0.N) : Memref sig .tc .vmem S32x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x1024 .f32 := win0_2.stage (cfg0.slots t 2)
abbrev hs2 (t : Fin cfg0.N) : (ms2 t).IsWhole := hstage0_2 ((cfg0.slots t 2).cast nbuf0_2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the input buffers stated on the part the fetch fills, the output's exactly. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ (∃ d, owns (c : Thread nD τ) (ms1 t) fullShare (win0_1.fill (grid0.coords t) d (win0_1.cut (grid0.coords t) ((dats m 0 c).after 1 t))))
    ∗ owns (c : Thread nD τ) (ms2 t) fullShare ((dats m 0 c).after 2 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2]
  have hN : t.val < 49 := lt_of_lt_of_eq t.isLt (show cfg0.N = 49 from N_0)
  iintro ⟨HΦ, Ho, ⟨%d0, H0⟩, ⟨%d1, H1⟩, ⟨%d2, H2⟩⟩
  rw [before_0 m c t d0, before_1 m c t d1]
  by_cases hA : t.val % 7 = 0
  · have h48 : t.val < 48 := by omega
    rw [acc_reset m c t hA, fill0_uncut m c t h48, fill1_uncut m c t h48]
    iapply (bodyA c (grid0.coords t) _ _ _ _ _ _ ((hcond1 t).mpr hA) ((hcond2 t).mpr h48)
      (fun h => by have := (hcond3 t).mp h; omega) (Mz m c t) (Xz m c t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]
    · iexists (Mz m c t); rw [Window.fill_cut]; iexact H0
    isplitl [H1]
    · iexists (Xz m c t); rw [Window.fill_cut]; iexact H1
    iexact H2
  · rw [acc_step m c t hA, before_2 m c t hA d2]
    by_cases h48 : t.val < 48
    · rw [fill0_uncut m c t h48, fill1_uncut m c t h48]
      iapply (bodyB c (grid0.coords t) _ _ _ _ _ _ (fun h => hA ((hcond1 t).mp h)) ((hcond2 t).mpr h48)
        (fun h => by have := (hcond3 t).mp h; omega) (Mz m c t) (Xz m c t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]
      · iexists (Mz m c t); rw [Window.fill_cut]; iexact H0
      isplitl [H1]
      · iexists (Xz m c t); rw [Window.fill_cut]; iexact H1
      iexact H2
    · have h48' : t.val = 48 := by omega
      rw [← pay3_eq_pay2 (win0_0.fill (grid0.coords t) d0 (iblk m c 0 t)) (Mz m c t)
        (win0_1.fill (grid0.coords t) d1 (iblk m c 1 t)) (Xz m c t) _ (Mz_last m c t h48' d0) (Xz_last m c t h48' d1)]
      iapply (bodyC c (grid0.coords t) _ _ _ _ _ _ (fun h => hA ((hcond1 t).mp h)) (fun h => h48 ((hcond2 t).mp h))
        ((hcond3 t).mpr h48') _ _ _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]
      · iexists d0; unfold Mz; rw [Window.cut_fill]; iexact H0
      isplitl [H1]
      · iexists d1; unfold Xz; rw [Window.cut_fill]; iexact H1
      iexact H2

theorem body_obligation (c : Dev nD) : BodyObligationLoose (dats (F := F) m 0 c) (defs₀ (F := F)) Variants.none () Set.univ := fun t => by
  rw [bigSep_W0, bigSep_W0]
  have hi : idle0 2 (grid0.coords t) = false := idle_live _
  simp only [hi]
  exact sound_body m c t

/-! ## The run and the frame -/

set_option backward.isDefEq.respectTransparency.types false in
/-- Every weakly fair execution of @main terminates, and in every final state each array of the pipeline holds what
    the proof data compute for it and every other unscoped buffer what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Runs.lean ====
/-
  The kernel body, run once per control case, on any whole staging memrefs and any contents of the two input
  buffers. The body's three conditionals depend on the grid point only: with k = 7 * p + kk the block index along
  the contraction axis, the first (kk = 0) zeroes the output block, the second (k < 48) adds the product of the two
  input blocks to it, the third (k = 48, the last block, which runs past the arrays' end) adds the product of the
  two blocks with everything from position 1696 on replaced by zero. Three assignments of the conditions occur
  on the grid: reset-and-add (A), add (B), masked add (C). In each the output's staging buffer ends holding one
  payload of the skeleton, applied to what the input buffers hold and (B, C) to what the output buffer held.
-/
import proofs.«109520_g74792560493228_cont_9to1c4b_67_8_alg».proof.Proof.Gen.KernelIdeal.Launch
import proofs.«109520_g74792560493228_cont_9to1c4b_67_8_alg».proof.Proof.Gen.KernelIdeal.Skeleton
import proofs.«109520_g74792560493228_cont_9to1c4b_67_8_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body run in one control case: on whole staging memrefs holding `x0`, `x1` (and the output's at what the case
    finds there) the body runs to the continuation with the inputs' buffers as they were and the output's with the
    listed pieces written. -/
noncomputable def runA (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : k0_cond1 i = 1#1) (h2 : k0_cond2 i = 1#1) (h3 : ¬k0_cond3 i = 1#1)
    (x0 : Vec F S32x2048 .f32) (x1 : Vec F S2048x1024 .f32) :
    { L : List (View.Piece (Elt F) S1x32x1024 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__mm_kernel i arg2 harg2 arg3 harg3 arg4 harg4) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body run in one control case: on whole staging memrefs holding `x0`, `x1` (and the output's at what the case
    finds there) the body runs to the continuation with the inputs' buffers as they were and the output's with the
    listed pieces written. -/
noncomputable def runB (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : k0_cond2 i = 1#1) (h3 : ¬k0_cond3 i = 1#1)
    (x0 : Vec F S32x2048 .f32) (x1 : Vec F S2048x1024 .f32) (xo : Vec F S1x32x1024 .f32) :
    { L : List (View.Piece (Elt F) S1x32x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__mm_kernel i arg2 harg2 arg3 harg3 arg4 harg4) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body run in one control case: on whole staging memrefs holding `x0`, `x1` (and the output's at what the case
    finds there) the body runs to the continuation with the inputs' buffers as they were and the output's with the
    listed pieces written. -/
noncomputable def runC (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : ¬k0_cond2 i = 1#1) (h3 : k0_cond3 i = 1#1)
    (x0 : Vec F S32x2048 .f32) (x1 : Vec F S2048x1024 .f32) (xo : Vec F S1x32x1024 .f32) :
    { L : List (View.Piece (Elt F) S1x32x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__mm_kernel i arg2 harg2 arg3 harg3 arg4 harg4) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- Case A's one covering store tiles the output block. -/
theorem coverA (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : k0_cond1 i = 1#1) (h2 : k0_cond2 i = 1#1) (h3 : ¬k0_cond3 i = 1#1) (x0 : Vec F S32x2048 .f32) (x1 : Vec F S2048x1024 .f32) (y : S1x32x1024.Idx) :
    ∃ pc ∈ (runA c i arg2 harg2 arg3 harg3 arg4 harg4 h1 h2 h3 x0 x1).1, y ∈ pc.1.set :=
  View.cover_of_tiledL (runA c i arg2 harg2 arg3 harg3 arg4 harg4 h1 h2 h3 x0 x1).1 S1x32x1024.size (by sl_kernel_rfl) y

/-- Case A: the zero block is stored, read back, and the product of the input blocks added to it. -/
theorem canonA (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : k0_cond1 i = 1#1) (h2 : k0_cond2 i = 1#1) (h3 : ¬k0_cond3 i = 1#1) (x0 : Vec F S32x2048 .f32) (x1 : Vec F S2048x1024 .f32) :
    View.canon (runA c i arg2 harg2 arg3 harg3 arg4 harg4 h1 h2 h3 x0 x1).1 = k0_pay2 k0_pay1 x0 x1 := by
  have hz3 : (![0, 0, 0] : Fin 3 → Nat) = fun _ => 0 := funext fun a => by fin_cases a <;> rfl
  have hz2 : (![0, 0] : Fin 2 → Nat) = fun _ => 0 := funext fun a => by fin_cases a <;> rfl
  unfold runA; dsimp only; sl_unfold_words
  rw [View.canon_cons_unit_zero (S := S1x32x1024) hz3]
  simp only [View.readAt_eq_ld, harg2.read_unread, harg3.read_unread, harg4.read_unread,
    View.ld_unit_zero (S := S32x2048) hz2, View.ld_unit_zero (S := S2048x1024) hz2, View.ld_unit_zero (S := S1x32x1024) hz3,
    View.readCov_unit_zero (S := S1x32x1024) _ hz3]

/-- The body in case A, with the output's staging buffer left at the case's payload. -/
theorem bodyA (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : k0_cond1 i = 1#1) (h2 : k0_cond2 i = 1#1) (h3 : ¬k0_cond3 i = 1#1) (x0 : Vec F S32x2048 .f32) (x1 : Vec F S2048x1024 .f32) (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay2 k0_pay1 x0 x1)) -∗ K ⟨⟩))
      ⊢ wp frame (wpE (defs₀ (F := F)) Variants.none c none) E (cc0__mm_kernel i arg2 harg2 arg3 harg3 arg4 harg4) K := by
  iintro ⟨H0, H1, H2, Hk⟩
  iapply ((runA c i arg2 harg2 arg3 harg3 arg4 harg4 h1 h2 h3 x0 x1).2 E K)
  isplitl [H0]; · iexact H0
  isplitl [H1]; · iexact H1
  isplitl [H2]; · iexact H2
  iintro ⟨H0, H1, ⟨%e, H2⟩⟩
  iapply Hk
  isplitl [H0]; · iexact H0
  isplitl [H1]; · iexact H1
  unfold owns; iexists _; isplitr
  swap; · iexact H2
  ipureintro
  rw [View.read_writes_eq_canon _ _ _ (coverA c i arg2 harg2 arg3 harg3 arg4 harg4 h1 h2 h3 x0 x1)]
  exact canonA c i arg2 harg2 arg3 harg3 arg4 harg4 h1 h2 h3 x0 x1

/-- Case B's one covering store tiles the output block. -/
theorem coverB (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : k0_cond2 i = 1#1) (h3 : ¬k0_cond3 i = 1#1) (x0 : Vec F S32x2048 .f32) (x1 : Vec F S2048x1024 .f32) (xo : Vec F S1x32x1024 .f32) (y : S1x32x1024.Idx) :
    ∃ pc ∈ (runB c i arg2 harg2 arg3 harg3 arg4 harg4 h1 h2 h3 x0 x1 xo).1, y ∈ pc.1.set :=
  View.cover_of_tiledL (runB c i arg2 harg2 arg3 harg3 arg4 harg4 h1 h2 h3 x0 x1 xo).1 S1x32x1024.size (by sl_kernel_rfl) y

/-- Case B: the product of the input blocks is added to what the output buffer held. -/
theorem canonB (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : k0_cond2 i = 1#1) (h3 : ¬k0_cond3 i = 1#1) (x0 : Vec F S32x2048 .f32) (x1 : Vec F S2048x1024 .f32) (xo : Vec F S1x32x1024 .f32) :
    View.canon (runB c i arg2 harg2 arg3 harg3 arg4 harg4 h1 h2 h3 x0 x1 xo).1 = k0_pay2 xo x0 x1 := by
  have hz3 : (![0, 0, 0] : Fin 3 → Nat) = fun _ => 0 := funext fun a => by fin_cases a <;> rfl
  have hz2 : (![0, 0] : Fin 2 → Nat) = fun _ => 0 := funext fun a => by fin_cases a <;> rfl
  unfold runB; dsimp only; sl_unfold_words
  rw [View.canon_unit_zero (S := S1x32x1024) hz3]
  simp only [View.readAt_eq_ld, harg2.read_unread, harg3.read_unread, harg4.read_unread,
    View.ld_unit_zero (S := S32x2048) hz2, View.ld_unit_zero (S := S2048x1024) hz2, View.ld_unit_zero (S := S1x32x1024) hz3,
    View.readCov_unit_zero (S := S1x32x1024) _ hz3]

/-- The body in case B, with the output's staging buffer left at the case's payload. -/
theorem bodyB (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : k0_cond2 i = 1#1) (h3 : ¬k0_cond3 i = 1#1) (x0 : Vec F S32x2048 .f32) (x1 : Vec F S2048x1024 .f32) (xo : Vec F S1x32x1024 .f32) (E : Set ℕ) (K : PUnit → sProp 𝕄) :
    iprop(owns (c : Thread nD τ) arg2 fullShare x0 ∗ owns (c : Thread nD τ) arg3 fullShare x1
        ∗ owns (c : Thread nD τ) arg4 fullShare xo
        ∗ (iprop(owns (c : Thread nD τ) arg2 fullShare x0 ∗ owns (c : Thread nD τ) arg3 fullShare x1
            ∗ owns (c : Thread nD τ) arg4 fullShare (k0_pay2 xo x0 x1)) -∗ K ⟨⟩))
      ⊢ wp frame (wpE (defs₀ (F := F)) Variants.none c none) E (cc0__mm_kernel i arg2 harg2 arg3 harg3 arg4 harg4) K := by
  iintro ⟨H0, H1, H2, Hk⟩
  iapply ((runB c i arg2 harg2 arg3 harg3 arg4 harg4 h1 h2 h3 x0 x1 xo).2 E K)
  isplitl [H0]; · iexact H0
  isplitl [H1]; · iexact H1
  isplitl [H2]; · iexact H2
  iintro ⟨H0, H1, ⟨%e, H2⟩⟩
  iapply Hk
  isplitl [H0]; · iexact H0
  isplitl [H1]; · iexact H1
  unfold owns; iexists _; isplitr
  swap; · iexact H2
  ipureintro
  rw [View.read_writes_eq_canon _ _ _ (coverB c i arg2 harg2 arg3 harg3 arg4 harg4 h1 h2 h3 x0 x1 xo)]
  exact canonB c i arg2 harg2 arg3 harg3 arg4 harg4 h1 h2 h3 x0 x1 xo

/-- Case C's one covering store tiles the output block. -/
theorem coverC (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : ¬k0_cond2 i = 1#1) (h3 : k0_cond3 i = 1#1) (x0 : Vec F S32x2048 .f32) (x1 : Vec F S2048x1024 .f32) (xo : Vec F S1x32x1024 .f32) (y : S1x32x1024.Idx) :
    ∃ pc ∈ (runC c i arg2 harg2 arg3 harg3 arg4 harg4 h1 h2 h3 x0 x1 xo).1, y ∈ pc.1.set :=
  View.cover_of_tiledL (runC c i arg2 harg2 arg3 harg3 arg4 harg4 h1 h2 h3 x0 x1 xo).1 S1x32x1024.size (by sl_kernel_rfl) y

/-- Case C: the product of the masked input blocks is added to what the output buffer held. -/
theorem canonC (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : ¬k0_cond2 i = 1#1) (h3 : k0_cond3 i = 1#1) (x0 : Vec F S32x2048 .f32) (x1 : Vec F S2048x1024 .f32) (xo : Vec F S1x32x1024 .f32) :
    View.canon (runC c i arg2 harg2 arg3 harg3 arg4 harg4 h1 h2 h3 x0 x1 xo).1 = k0_pay3 x0 x1 xo := by
  have hz3 : (![0, 0, 0] : Fin 3 → Nat) = fun _ => 0 := funext fun a => by fin_cases a <;> rfl
  have hz2 : (![0, 0] : Fin 2 → Nat) = fun _ => 0 := funext fun a => by fin_cases a <;> rfl
  unfold runC; dsimp only; sl_unfold_words
  rw [View.canon_unit_zero (S := S1x32x1024) hz3]
  simp only [View.readAt_eq_ld, harg2.read_unread, harg3.read_unread, harg4.read_unread,
    View.ld_unit_zero (S := S32x2048) hz2, View.ld_unit_zero (S := S2048x1024) hz2, View.ld_unit_zero (S := S1x32x1024) hz3,
    View.readCov_unit_zero (S := S1x32x1024) _ hz3]

/-- The body in case C, with the output's staging buffer left at the case's payload. -/
theorem bodyC (c : Dev nD) (i : grid0.Coords)
    (arg2 : Memref sig .tc .vmem S32x2048 .f32) (harg2 : arg2.IsWhole)
    (arg3 : Memref sig .tc .vmem S2048x1024 .f32) (harg3 : arg3.IsWhole)
    (arg4 : Memref sig .tc .vmem S1x32x1024 .f32) (harg4 : arg4.IsWhole)
    (h1 : ¬k0_cond1 i = 1#1) (h2 : ¬k0_cond2 i = 1#1) (h3 : k0_cond3 i = 1#1) (x0 : Vec F S32x2048 .f32) (x1 : Vec F S2048x1024 .f32) (xo : Vec F S1x32x1024 .f32) (E : Set ℕ) (K : PUnit → sProp 𝕄) :
    iprop(owns (c : Thread nD τ) arg2 fullShare x0 ∗ owns (c : Thread nD τ) arg3 fullShare x1
        ∗ owns (c : Thread nD τ) arg4 fullShare xo
        ∗ (iprop(owns (c : Thread nD τ) arg2 fullShare x0 ∗ owns (c : Thread nD τ) arg3 fullShare x1
            ∗ owns (c : Thread nD τ) arg4 fullShare (k0_pay3 x0 x1 xo)) -∗ K ⟨⟩))
      ⊢ wp frame (wpE (defs₀ (F := F)) Variants.none c none) E (cc0__mm_kernel i arg2 harg2 arg3 harg3 arg4 harg4) K := by
  iintro ⟨H0, H1, H2, Hk⟩
  iapply ((runC c i arg2 harg2 arg3 harg3 arg4 harg4 h1 h2 h3 x0 x1 xo).2 E K)
  isplitl [H0]; · iexact H0
  isplitl [H1]; · iexact H1
  isplitl [H2]; · iexact H2
  iintro ⟨H0, H1, ⟨%e, H2⟩⟩
  iapply Hk
  isplitl [H0]; · iexact H0
  isplitl [H1]; · iexact H1
  unfold owns; iexists _; isplitr
  swap; · iexact H2
  ipureintro
  rw [View.read_writes_eq_canon _ _ _ (coverC c i arg2 harg2 arg3 harg3 arg4 harg4 h1 h2 h3 x0 x1 xo)]
  exact canonC c i arg2 harg2 arg3 harg3 arg4 harg4 h1 h2 h3 x0 x1 xo

end Cert.KernelIdeal.Body

end
-- ==== Proof.KI.Tail.lean ====
/- The masked last block of the contraction axis. On that block only the first 1696 of the 2048
   positions along the contracted axis lie inside the arrays; the payload of the last step zeroes
   both operands past position 1696 (a select on an iota compared with 1696) before the product.
   So the last step's payload at operands (x0, x1) is the ordinary step's payload at the operands
   with zeros written at the positions ≥ 1696 — whatever x0 and x1 hold there. Nothing here uses a
   property of float arithmetic: select, iota, cmpi, broadcast and a same-shape shape_cast are
   pointwise or structural, so the statement holds at every float instance. -/
import proofs.«109520_g74792560493228_cont_9to1c4b_67_8_alg».proof.Proof.Gen.KernelIdeal.Skeleton
import Idealize.ShloMosaic.Lib.ValueIdx
import Idealize.ShloMosaic.Lib.Pipeline.Value

noncomputable section

namespace Cert.KernelIdeal.Body

open Cert.KernelIdeal Cert.KernelIdeal.Gen Idealize.ShloMosaic

variable {F : FTy → Type} [FloatOps F]

/-- For a position n below 2048, the signed 32-bit comparison of the word of n with 1696 is n < 1696:
    both words are non-negative as signed integers and equal to their naturals. A select on that
    comparison is the `if` on n < 1696. -/
theorem select_slt_1696 {α : Type} (n : Nat) (hn : n < 2048) (a b : α) :
    Scalar.select (IntOp.cmpi .slt (BitVec.ofNat 32 n) 1696#32) a b = if n < 1696 then a else b := by
  have hs : (BitVec.ofNat 32 n).slt 1696#32 = decide (n < 1696) := by
    rw [Bool.eq_iff_iff, BitVec.slt_iff_toInt_lt, decide_eq_true_iff, BitVec.toInt_eq_toNat_cond,
      BitVec.toInt_eq_toNat_cond, BitVec.toNat_ofNat, BitVec.toNat_ofNat]
    have h1 : n % 2 ^ 32 = n := Nat.mod_eq_of_lt (by omega)
    rw [h1]
    norm_num
    omega
  unfold Scalar.select IntOp.cmpi
  simp only [hs]
  by_cases h : n < 1696 <;> simp [h]

/-- The left operand masked along axis 1: the select on (iota along axis 1) < 1696 between x0 and
    the zero word is x0 with zeros written at the columns ≥ 1696. -/
theorem mask_left (x0 x0z : Vec F S32x2048 .f32)
    (h0 : ∀ j : S32x2048.Idx, x0z j = if (j 1).val < 1696 then x0 j else Scalar.ofBits .f32 0x00000000#32) :
    select (cmpi .slt (iota .tc S32x2048 32 [1] iota_S32x2048_d1_w32) (broadcast S32x2048 1696#32))
        (shapeCast S32x2048 x0 shapeCasts_S32x2048_S32x2048)
        (broadcast S32x2048 (Scalar.ofBits .f32 0x00000000#32 : F .f32))
      = shapeCast S32x2048 x0z shapeCasts_S32x2048_S32x2048 := by
  rw [shapeCast_self, shapeCast_self]
  funext j
  rw [ValueIdx.select_apply, h0 j]
  show Scalar.select (IntOp.cmpi .slt (iota .tc S32x2048 32 [1] iota_S32x2048_d1_w32 j) 1696#32) (x0 j) _ = _
  rw [iota_single_apply]
  exact select_slt_1696 (j 1).val (j 1).isLt _ _

/-- The right operand masked along axis 0: the select on (iota along axis 0) < 1696 between x1 and
    the zero word is x1 with zeros written at the rows ≥ 1696. -/
theorem mask_right (x1 x1z : Vec F S2048x1024 .f32)
    (h1 : ∀ j : S2048x1024.Idx, x1z j = if (j 0).val < 1696 then x1 j else Scalar.ofBits .f32 0x00000000#32) :
    select (cmpi .slt (iota .tc S2048x1024 32 [0] iota_S2048x1024_d0_w32) (broadcast S2048x1024 1696#32))
        (shapeCast S2048x1024 x1 shapeCasts_S2048x1024_S2048x1024)
        (broadcast S2048x1024 (Scalar.ofBits .f32 0x00000000#32 : F .f32))
      = shapeCast S2048x1024 x1z shapeCasts_S2048x1024_S2048x1024 := by
  rw [shapeCast_self, shapeCast_self]
  funext j
  rw [ValueIdx.select_apply, h1 j]
  show Scalar.select (IntOp.cmpi .slt (iota .tc S2048x1024 32 [0] iota_S2048x1024_d0_w32 j) 1696#32) (x1 j) _ = _
  rw [iota_single_apply]
  exact select_slt_1696 (j 0).val (j 0).isLt _ _

/-- The last step's payload at (x0, x1) is the ordinary step's payload at the operands with zeros
    written past position 1696 of the contracted axis. -/
theorem pay3_eq_pay2 (x0 x0z : Vec F S32x2048 .f32) (x1 x1z : Vec F S2048x1024 .f32) (xo : Vec F S1x32x1024 .f32)
    (h0 : ∀ j : S32x2048.Idx, x0z j = if (j 1).val < 1696 then x0 j else Scalar.ofBits .f32 0x00000000#32)
    (h1 : ∀ j : S2048x1024.Idx, x1z j = if (j 0).val < 1696 then x1 j else Scalar.ofBits .f32 0x00000000#32) :
    k0_pay3 (F := F) x0 x1 xo = k0_pay2 (F := F) xo x0z x1z := by
  unfold k0_pay3 k0_pay2
  simp only []
  rw [mask_left x0 x0z h0, mask_right x1 x1z h1]

end Cert.KernelIdeal.Body

end
-- ==== Proof.KI.Data.lean ====
/-
  The proof data of the one pipeline and its body obligation. The grid has 49 points t = 7 * p + kk; point t
  stages block t of the contraction axis of both operands (2048 positions; block 48 runs 352 positions past the
  arrays' end, and what the staging buffers hold there nothing names) and accumulates into output block p, which is
  written back at kk = 6. After the body at point t the output's staging buffer holds `acc t`: the product of the
  two zero-continued operand blocks added to the zero block (kk = 0) or to `acc (t - 1)` (kk > 0). Zero-continued:
  the block inside the arrays and zeros past their end. At the last point the body itself replaces everything past
  position 1696 by zero in both operands, so what it adds is the product of the zero-continued blocks there too,
  whatever the buffers held past the arrays' end. The input buffers are only read: they are handed back as found.
-/
import proofs.«109520_g74792560493228_cont_9to1c4b_67_8_alg».proof.Proof.KI.Runs
import proofs.«109520_g74792560493228_cont_9to1c4b_67_8_alg».proof.Proof.KI.Tail
import proofs.«109520_g74792560493228_cont_9to1c4b_67_8_alg».proof.Proof.Gen.KernelIdeal.Frame
import Idealize.ShloMosaic.Lib.Pipeline.Frame
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond1 : ∀ t : Fin cfg0.N, k0_cond1 (grid0.coords t) = 1#1 ↔ t.val % 7 = 0 :=
  (by decide +kernel : ∀ t : Fin grid0.N, k0_cond1 (grid0.coords t) = 1#1 ↔ t.val % 7 = 0)
theorem hcond2 : ∀ t : Fin cfg0.N, k0_cond2 (grid0.coords t) = 1#1 ↔ t.val < 48 :=
  (by decide +kernel : ∀ t : Fin grid0.N, k0_cond2 (grid0.coords t) = 1#1 ↔ t.val < 48)
theorem hcond3 : ∀ t : Fin cfg0.N, k0_cond3 (grid0.coords t) = 1#1 ↔ t.val = 48 :=
  (by decide +kernel : ∀ t : Fin grid0.N, k0_cond3 (grid0.coords t) = 1#1 ↔ t.val = 48)
theorem idle_live : ∀ i : grid0.Coords, cfg0.idle 2 i = false :=
  (by decide +kernel : ∀ i : grid0.Coords, idle0 2 i = false)
theorem clip0_none : ∀ t : Fin cfg0.N, t.val < 48 → ∀ a, (cfg0.win 0).clip (cfg0.grid.coords t) a = none :=
  (by decide +kernel : ∀ t : Fin grid0.N, t.val < 48 → ∀ a, win0_0.clip (grid0.coords t) a = none)
theorem clip1_none : ∀ t : Fin cfg0.N, t.val < 48 → ∀ a, (cfg0.win 1).clip (cfg0.grid.coords t) a = none :=
  (by decide +kernel : ∀ t : Fin grid0.N, t.val < 48 → ∀ a, win0_1.clip (grid0.coords t) a = none)
theorem xsize0_last : ∀ t : Fin cfg0.N, t.val = 48 → win0_0.xsize (grid0.coords t) 0 = 32 ∧ win0_0.xsize (grid0.coords t) 1 = 1696 :=
  (by decide +kernel : ∀ t : Fin grid0.N, t.val = 48 → win0_0.xsize (grid0.coords t) 0 = 32 ∧ win0_0.xsize (grid0.coords t) 1 = 1696)
theorem xsize1_last : ∀ t : Fin cfg0.N, t.val = 48 → win0_1.xsize (grid0.coords t) 0 = 1696 ∧ win0_1.xsize (grid0.coords t) 1 = 1024 :=
  (by decide +kernel : ∀ t : Fin grid0.N, t.val = 48 → win0_1.xsize (grid0.coords t) 0 = 1696 ∧ win0_1.xsize (grid0.coords t) 1 = 1024)

/-- the zero word -/
abbrev zw : Elt F .f32 := Scalar.ofBits .f32 0x00000000#32

def Mz (c : Dev nD) (t : Fin cfg0.N) : Vec F S32x2048 .f32 :=
  win0_0.fill (grid0.coords t) (fun _ => zw) (iblk m c 0 t)
def Xz (c : Dev nD) (t : Fin cfg0.N) : Vec F S2048x1024 .f32 :=
  win0_1.fill (grid0.coords t) (fun _ => zw) (iblk m c 1 t)

def acc (c : Dev nD) : (n : ℕ) → n < cfg0.N → Vec F S1x32x1024 .f32
  | 0, hn => k0_pay2 k0_pay1 (Mz m c ⟨0, hn⟩) (Xz m c ⟨0, hn⟩)
  | n + 1, hn =>
    if (n + 1) % 7 = 0 then k0_pay2 k0_pay1 (Mz m c ⟨n + 1, hn⟩) (Xz m c ⟨n + 1, hn⟩)
    else k0_pay2 (acc c n (Nat.lt_of_succ_lt hn)) (Mz m c ⟨n + 1, hn⟩) (Xz m c ⟨n + 1, hn⟩)

theorem acc_reset (c : Dev nD) (t : Fin cfg0.N) (h : t.val % 7 = 0) :
    acc m c t.val t.isLt = k0_pay2 k0_pay1 (Mz m c t) (Xz m c t) := by
  obtain ⟨n, hn⟩ := t
  cases n with
  | zero => rfl
  | succ n => exact if_pos h

theorem acc_step (c : Dev nD) (t : Fin cfg0.N) (h : ¬t.val % 7 = 0) :
    acc m c t.val t.isLt = k0_pay2 (acc m c (t.val - 1) (Nat.lt_of_le_of_lt (Nat.sub_le _ _) t.isLt)) (Mz m c t) (Xz m c t) := by
  obtain ⟨n, hn⟩ := t
  cases n with
  | zero => exact absurd (Nat.zero_mod _) h
  | succ n => exact if_neg h

def dats (_ : Fin 1) (c : Dev nD) : Dat τ (Elt F) Unit ℕ (UR sig nD τ) ℕ cfg0 c where
  A w := V m c (Pipeline.arrRef spec0 w)
  after w t := match w with
    | ⟨0, _⟩ => Mz m c t
    | ⟨1, _⟩ => Xz m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = Mz m c t := by dsimp only [dats]
theorem after_1 (c : Dev nD) (t : Fin cfg0.N) : (dats m 0 c).after 1 t = Xz m c t := by dsimp only [dats]
theorem after_2 (c : Dev nD) (t : Fin cfg0.N) : (dats m 0 c).after 2 t = acc m c t.val t.isLt := by dsimp only [dats]

theorem before_0 (c : Dev nD) (t : Fin cfg0.N) (d) :
    (dats m 0 c).before 0 t d = win0_0.fill (grid0.coords t) d (iblk m c 0 t) := by
  rw [Dat.before_fetched _ 0 t (fetch0_0 t)]; rfl
theorem before_1 (c : Dev nD) (t : Fin cfg0.N) (d) :
    (dats m 0 c).before 1 t d = win0_1.fill (grid0.coords t) d (iblk m c 1 t) := by
  rw [Dat.before_fetched _ 1 t (fetch0_1 t)]; rfl
theorem before_2 (c : Dev nD) (t : Fin cfg0.N) (h : ¬t.val % 7 = 0) (d) :
    (dats m 0 c).before 2 t d = acc m c (t.val - 1) (Nat.lt_of_le_of_lt (Nat.sub_le _ _) t.isLt) := by
  have hN : t.val < 49 := lt_of_lt_of_eq t.isLt (show cfg0.N = 49 from N_0)
  rw [Dat.before_out_kept _ 2 rfl t (by omega) (Bool.eq_false_iff.mpr fun hf => by have := (flush0_2 _).mp hf; dsimp only at this; omega)
    idle_live (fun _ _ => rfl)]
  dsimp only [dats]

/-! ## What the input buffers hold, whatever was there before the fetch -/

/-- Away from the last block the fetch fills the whole buffer: nothing of the earlier contents is left. -/
theorem fill0_uncut (c : Dev nD) (t : Fin cfg0.N) (ht : t.val < 48) (d) :
    win0_0.fill (grid0.coords t) d (iblk m c 0 t) = Mz m c t :=
  Pipeline.fill_of_clip_none (cfg := cfg0) 0 (grid0.coords t) (clip0_none t ht) d (fun _ => zw) (iblk m c 0 t)
theorem fill1_uncut (c : Dev nD) (t : Fin cfg0.N) (ht : t.val < 48) (d) :
    win0_1.fill (grid0.coords t) d (iblk m c 1 t) = Xz m c t :=
  Pipeline.fill_of_clip_none (cfg := cfg0) 1 (grid0.coords t) (clip1_none t ht) d (fun _ => zw) (iblk m c 1 t)

/-- At the last block the fetch fills columns 0‥1695 of window 0's buffer: the zero-continued block is the buffer
    with zeros from column 1696 on, whatever the buffer held there. -/
theorem Mz_last (c : Dev nD) (t : Fin cfg0.N) (ht : t.val = 48) (d) (j : S32x2048.Idx) :
    Mz m c t j = if (j 1).val < 1696 then win0_0.fill (grid0.coords t) d (iblk m c 0 t) j else zw := by
  obtain ⟨h0, h1⟩ := xsize0_last t ht
  unfold Mz Window.fill
  by_cases hm : win0_0.moved (grid0.coords t) j = true
  · have h := (win0_0.moved_iff _ j).mp hm 1
    rw [h1] at h
    rw [dif_pos hm, dif_pos hm, if_pos h]
  · have hn : ¬(j 1).val < 1696 := fun hlt => hm ((win0_0.moved_iff _ j).mpr fun a => by
      match a with
      | ⟨0, _⟩ => exact lt_of_lt_of_eq (j 0).isLt h0.symm
      | ⟨1, _⟩ => exact lt_of_lt_of_eq hlt h1.symm)
    rw [dif_neg hm, if_neg hn]
/-- Likewise rows 0‥1695 of window 1's buffer. -/
theorem Xz_last (c : Dev nD) (t : Fin cfg0.N) (ht : t.val = 48) (d) (j : S2048x1024.Idx) :
    Xz m c t j = if (j 0).val < 1696 then win0_1.fill (grid0.coords t) d (iblk m c 1 t) j else zw := by
  obtain ⟨h0, h1⟩ := xsize1_last t ht
  unfold Xz Window.fill
  by_cases hm : win0_1.moved (grid0.coords t) j = true
  · have h := (win0_1.moved_iff _ j).mp hm 0
    rw [h0] at h
    rw [dif_pos hm, dif_pos hm, if_pos h]
  · have hn : ¬(j 0).val < 1696 := fun hlt => hm ((win0_1.moved_iff _ j).mpr fun a => by
      match a with
      | ⟨0, _⟩ => exact lt_of_lt_of_eq hlt h0.symm
      | ⟨1, _⟩ => exact lt_of_lt_of_eq (j 1).isLt h1.symm)
    rw [dif_neg hm, if_neg hn]

/-! ## The body obligation -/

abbrev ms0 (t : Fin cfg0.N) : Memref sig .tc .vmem S32x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x1024 .f32 := win0_2.stage (cfg0.slots t 2)
abbrev hs2 (t : Fin cfg0.N) : (ms2 t).IsWhole := hstage0_2 ((cfg0.slots t 2).cast nbuf0_2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the input buffers stated on the part the fetch fills, the output's exactly. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ (∃ d, owns (c : Thread nD τ) (ms1 t) fullShare (win0_1.fill (grid0.coords t) d (win0_1.cut (grid0.coords t) ((dats m 0 c).after 1 t))))
    ∗ owns (c : Thread nD τ) (ms2 t) fullShare ((dats m 0 c).after 2 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2]
  have hN : t.val < 49 := lt_of_lt_of_eq t.isLt (show cfg0.N = 49 from N_0)
  iintro ⟨HΦ, Ho, ⟨%d0, H0⟩, ⟨%d1, H1⟩, ⟨%d2, H2⟩⟩
  rw [before_0 m c t d0, before_1 m c t d1]
  by_cases hA : t.val % 7 = 0
  · have h48 : t.val < 48 := by omega
    rw [acc_reset m c t hA, fill0_uncut m c t h48, fill1_uncut m c t h48]
    iapply (bodyA c (grid0.coords t) _ _ _ _ _ _ ((hcond1 t).mpr hA) ((hcond2 t).mpr h48)
      (fun h => by have := (hcond3 t).mp h; omega) (Mz m c t) (Xz m c t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]
    · iexists (Mz m c t); rw [Window.fill_cut]; iexact H0
    isplitl [H1]
    · iexists (Xz m c t); rw [Window.fill_cut]; iexact H1
    iexact H2
  · rw [acc_step m c t hA, before_2 m c t hA d2]
    by_cases h48 : t.val < 48
    · rw [fill0_uncut m c t h48, fill1_uncut m c t h48]
      iapply (bodyB c (grid0.coords t) _ _ _ _ _ _ (fun h => hA ((hcond1 t).mp h)) ((hcond2 t).mpr h48)
        (fun h => by have := (hcond3 t).mp h; omega) (Mz m c t) (Xz m c t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]
      · iexists (Mz m c t); rw [Window.fill_cut]; iexact H0
      isplitl [H1]
      · iexists (Xz m c t); rw [Window.fill_cut]; iexact H1
      iexact H2
    · have h48' : t.val = 48 := by omega
      rw [← pay3_eq_pay2 (win0_0.fill (grid0.coords t) d0 (iblk m c 0 t)) (Mz m c t)
        (win0_1.fill (grid0.coords t) d1 (iblk m c 1 t)) (Xz m c t) _ (Mz_last m c t h48' d0) (Xz_last m c t h48' d1)]
      iapply (bodyC c (grid0.coords t) _ _ _ _ _ _ (fun h => hA ((hcond1 t).mp h)) (fun h => h48 ((hcond2 t).mp h))
        ((hcond3 t).mpr h48') _ _ _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]
      · iexists d0; unfold Mz; rw [Window.cut_fill]; iexact H0
      isplitl [H1]
      · iexists d1; unfold Xz; rw [Window.cut_fill]; iexact H1
      iexact H2

theorem body_obligation (c : Dev nD) : BodyObligationLoose (dats (F := F) m 0 c) (defs₀ (F := F)) Variants.none () Set.univ := fun t => by
  rw [bigSep_W0, bigSep_W0]
  have hi : idle0 2 (grid0.coords t) = false := idle_live _
  simp only [hi]
  exact sound_body m c t

/-! ## The run and the frame -/

set_option backward.isDefEq.respectTransparency.types false in
/-- Every weakly fair execution of @main terminates, and in every final state each array of the pipeline holds what
    the proof data compute for it and every other unscoped buffer what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.Pay.lean ====
/- The two payloads of the kernel body read at an index, at the ideal instance (a float is an extended real,
   every operation the exact one). The first payload is the zero block; the second is the old block's entry plus the
   2048-term dot product of a row of the left block with a column of the right block. -/
import proofs.«109520_g74792560493228_cont_9to1c4b_67_8_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx Idealize.SL.Sem

/-! ## The first payload: the zero block -/

/-- The splat of the zero word reads `0` at every index. -/
theorem pay1_apply (j : S1x32x1024.Idx) : (k0_pay1 (F := Ideal) : S1x32x1024.Idx → EReal) j = 0 := by
  unfold k0_pay1
  show Ideal.ofBits .f32 0x00000000#32 = 0
  exact Ideal.ofBits_zero_f32

/-! ## The operand indices of the block product

The product contracts axis 1 of the left block `[32, 2048]` with axis 0 of the right block `[2048, 1024]`: at output
index `(a, b)` and contraction position `k` the left operand is read at `(a, k)` and the right one at `(k, b)`. -/

/-- The left index keeps the output's row. -/
theorem lhs_mm_0 (i : S32x1024.Idx) (q : dot_S32x2048_S2048x1024_S32x1024_1_0_0_1_n_n.contr.Idx) :
    (dot_S32x2048_S2048x1024_S32x1024_1_0_0_1_n_n.lhsIdx i q 0).val = (i 0).val := by
  unfold DotDims.lhsIdx
  rw [dif_neg (show ¬(0 : Fin S32x2048.rank) ∈ dot_S32x2048_S2048x1024_S32x1024_1_0_0_1_n_n.lhsBatch by decide), dif_pos (show (0 : Fin S32x2048.rank) ∈ dot_S32x2048_S2048x1024_S32x1024_1_0_0_1_n_n.lhsNonContracting by decide)]
  rfl
/-- The left index's column is the contraction position. -/
theorem lhs_mm_1 (i : S32x1024.Idx) (q : dot_S32x2048_S2048x1024_S32x1024_1_0_0_1_n_n.contr.Idx) :
    (dot_S32x2048_S2048x1024_S32x1024_1_0_0_1_n_n.lhsIdx i q 1).val = (q ⟨0, by decide⟩).val :=
  dot_S32x2048_S2048x1024_S32x1024_1_0_0_1_n_n.lhsIdx_val_of_single rfl i q
/-- The right index's row is the contraction position. -/
theorem rhs_mm_0 (i : S32x1024.Idx) (q : dot_S32x2048_S2048x1024_S32x1024_1_0_0_1_n_n.contr.Idx) :
    (dot_S32x2048_S2048x1024_S32x1024_1_0_0_1_n_n.rhsIdx i q 0).val = (q ⟨0, by decide⟩).val :=
  dot_S32x2048_S2048x1024_S32x1024_1_0_0_1_n_n.rhsIdx_val_of_single rfl i q
/-- The right index keeps the output's column. -/
theorem rhs_mm_1 (i : S32x1024.Idx) (q : dot_S32x2048_S2048x1024_S32x1024_1_0_0_1_n_n.contr.Idx) :
    (dot_S32x2048_S2048x1024_S32x1024_1_0_0_1_n_n.rhsIdx i q 1).val = (i 1).val := by
  unfold DotDims.rhsIdx
  rw [dif_neg (show ¬(1 : Fin S2048x1024.rank) ∈ dot_S32x2048_S2048x1024_S32x1024_1_0_0_1_n_n.rhsBatch by decide), dif_pos (show (1 : Fin S2048x1024.rank) ∈ dot_S32x2048_S2048x1024_S32x1024_1_0_0_1_n_n.rhsNonContracting by decide)]
  rfl

/-! ## The block product into the zero accumulator -/

/-- The product of a `[32, 2048]` block with a `[2048, 1024]` block into the zero accumulator reads, at `(a, b)`, the
    sum over `j` of the left block at `(a, j)` times the right block at `(j, b)`. -/
theorem mm_apply (x0 : FVec Ideal S32x2048 .f32) (x1 : FVec Ideal S2048x1024 .f32) (a : Fin 32) (b : Fin 1024) :
    matmul dot_S32x2048_S2048x1024_S32x1024_1_0_0_1_n_n none x0 x1 (constant (F := Ideal) S32x1024 .f32 0x00000000#32) (ix2 a b)
      = ∑ j : Fin 2048, x0 (ix2 a j) * x1 (ix2 j b) := by
  simp only [matmul]
  rw [Ideal.matmul_constant_zero_apply, ← Equiv.sum_comp (ValueIdx.contrEquiv1 dot_S32x2048_S2048x1024_S32x1024_1_0_0_1_n_n 2048 rfl rfl).symm]
  refine Finset.sum_congr rfl fun k _ => ?_
  have hk := ValueIdx.contrEquiv1_symm_val dot_S32x2048_S2048x1024_S32x1024_1_0_0_1_n_n 2048 rfl rfl k
  have el : dot_S32x2048_S2048x1024_S32x1024_1_0_0_1_n_n.lhsIdx (ix2 a b) ((ValueIdx.contrEquiv1 dot_S32x2048_S2048x1024_S32x1024_1_0_0_1_n_n 2048 rfl rfl).symm k) = ix2 a k := funext fun c => Fin.ext (by
    match c with
    | ⟨0, _⟩ => exact lhs_mm_0 _ _
    | ⟨1, _⟩ => exact (lhs_mm_1 _ _).trans hk)
  have er : dot_S32x2048_S2048x1024_S32x1024_1_0_0_1_n_n.rhsIdx (ix2 a b) ((ValueIdx.contrEquiv1 dot_S32x2048_S2048x1024_S32x1024_1_0_0_1_n_n 2048 rfl rfl).symm k) = ix2 k b := funext fun c => Fin.ext (by
    match c with
    | ⟨0, _⟩ => exact (rhs_mm_0 _ _).trans hk
    | ⟨1, _⟩ => exact rhs_mm_1 _ _)
  rw [el, er]

/-! ## The second payload: the old block plus the block product -/

/-- The second payload at `(0, a, b)`: the old block's entry there plus the dot product of row `a` of the left block
    with column `b` of the right block. -/
theorem pay2_apply (xo : Vec Ideal S1x32x1024 .f32) (x0 : Vec Ideal S32x2048 .f32) (x1 : Vec Ideal S2048x1024 .f32)
    (a : Fin 32) (b : Fin 1024) :
    (k0_pay2 (F := Ideal) xo x0 x1 : S1x32x1024.Idx → EReal) (ix3 (0 : Fin 1) a b)
      = xo (ix3 (0 : Fin 1) a b) + ∑ j : Fin 2048, x0 (ix2 a j) * x1 (ix2 j b) := by
  unfold k0_pay2
  refine (shapeCast_ab_1ab_apply _ _ (0 : Fin 1) a b).trans ?_
  rw [addf_apply, shapeCast_1ab_ab_apply, shapeCast_self, shapeCast_self]
  exact congrArg (xo (ix3 (0 : Fin 1) a b) + ·) (mm_apply x0 x1 a b)

end Cert.KernelIdeal.Val

end
-- ==== Proof.KI.Acc.lean ====
/-
  The accumulator at an index. After the body at point 7 * p + n (n = 0 … 6) the output's staging buffer holds at
  (0, a, b) the sum over k = 0 … n of the dot products of row a of the first operand's zero-continued block
  7 * p + k with column b of the second's: the first point of a run adds its product to the zero block, each later
  one to what the point before left.
-/
import proofs.«109520_g74792560493228_cont_9to1c4b_67_8_alg».proof.Proof.KI.Data
import proofs.«109520_g74792560493228_cont_9to1c4b_67_8_alg».proof.Proof.KI.Pay
import Idealize.ShloMosaic.Lib.ValueIdx
import Mathlib.Algebra.BigOperators.Fin

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- What point `t` adds to the output block's entry (0, a, b): the dot product of row `a` and column `b` of the two
    zero-continued operand blocks at `t`. -/
def addend (c : Dev nD) (a : Fin 32) (b : Fin 1024) (t : Fin cfg0.N) : EReal :=
  ∑ j : Fin 2048, (Mz (F := Ideal) m c t : S32x2048.Idx → EReal) (ix2 a j) * (Xz (F := Ideal) m c t : S2048x1024.Idx → EReal) (ix2 j b)

/-- The same at a natural number, zero past the grid. -/
def addendN (c : Dev nD) (a : Fin 32) (b : Fin 1024) (n : ℕ) : EReal :=
  if h : n < cfg0.N then addend m c a b ⟨n, h⟩ else 0

theorem grid_N : cfg0.N = 49 := N_0

/-- The running sum of a run of seven points. -/
theorem acc_run (c : Dev nD) (p : Fin 7) (a : Fin 32) (b : Fin 1024) :
    ∀ (n : ℕ) (hn : n < 7) (h : 7 * p.val + n < cfg0.N),
      (acc (F := Ideal) m c (7 * p.val + n) h : S1x32x1024.Idx → EReal) (ix3 (0 : Fin 1) a b)
        = ∑ k ∈ Finset.range (n + 1), addendN m c a b (7 * p.val + k)
  | 0, _, h => by
    have e := acc_reset (F := Ideal) m c ⟨7 * p.val + 0, h⟩ (by show (7 * p.val + 0) % 7 = 0; omega)
    rw [show acc (F := Ideal) m c (7 * p.val + 0) h = _ from e, pay2_apply, pay1_apply, Finset.sum_range_one, zero_add]
    unfold addendN; rw [dif_pos h]; rfl
  | n + 1, hn, h => by
    have hprev : 7 * p.val + n < cfg0.N := by omega
    have e := acc_step (F := Ideal) m c ⟨7 * p.val + (n + 1), h⟩ (by show ¬(7 * p.val + (n + 1)) % 7 = 0; omega)
    rw [show acc (F := Ideal) m c (7 * p.val + (n + 1)) h = _ from e, pay2_apply, Finset.sum_range_succ,
      ← acc_run c p a b n (by omega) hprev]
    unfold addendN; rw [dif_pos h]; rfl

/-- After the last point of run `p` the block's entry is the sum of the run's seven addends. -/
theorem acc_apply (c : Dev nD) (p : Fin 7) (a : Fin 32) (b : Fin 1024) (h : 7 * p.val + 6 < cfg0.N) :
    (acc (F := Ideal) m c (7 * p.val + 6) h : S1x32x1024.Idx → EReal) (ix3 (0 : Fin 1) a b)
      = ∑ kk : Fin 7, addendN m c a b (7 * p.val + kk.val) := by
  rw [acc_run m c p a b 6 (by omega) h, Fin.sum_univ_eq_sum_range (fun k => addendN m c a b (7 * p.val + k)) 7]

end Cert.KernelIdeal.Val

end
-- ==== Proof.KI.Host.lean ====
/-
  The host operations of the kernel program's @main around its one region, read at the ideal instance, entry by entry.
  Before the region: the two arrays the region's windows read are the two arguments transposed. After it: the program's
  result is the region's `[7, 32, 1024]` output array summed over its first axis from the zero constant, then transposed.
-/
import proofs.«109520_g74792560493228_cont_9to1c4b_67_8_alg».proof.Proof.Gen.KernelIdeal.Frame
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.Pipeline.FrameSuffix

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ)

/-- The second operand's transpose, as the region finds it: the second argument transposed. -/
theorem V_main_v1_eq (c : Dev nD) :
    (V (F := Ideal) m c main_v1 : S32x100000.Idx → EReal)
      = transpose S32x100000 [1, 0] (m ((c : Thread nD τ).loc main_arg1) : S100000x32.Idx → EReal) transposes_S100000x32_S32x100000_1_0 := by
  show StableHlo.after hostOps0 (fun b => m (c, b)) (Proc.devRef .tc main_v1) = _
  after_results

theorem V_main_v1_apply (c : Dev nD) (a : Fin 32) (J : Fin 100000) :
    (V (F := Ideal) m c main_v1 : S32x100000.Idx → EReal) (ix2 a J)
      = (m ((c : Thread nD τ).loc main_arg1) : S100000x32.Idx → EReal) (ix2 J a) := by
  rw [V_main_v1_eq]
  exact transpose_ix2_apply _ _ a J

theorem V_main_v0_eq (c : Dev nD) :
    (V (F := Ideal) m c main_v0 : S100000x1024.Idx → EReal)
      = transpose S100000x1024 [1, 0] (m ((c : Thread nD τ).loc main_arg0) : S1024x100000.Idx → EReal) transposes_S1024x100000_S100000x1024_1_0 := by
  show StableHlo.after hostOps0 (fun b => m (c, b)) (Proc.devRef .tc main_v0) = _
  after_results

theorem V_main_v0_apply (c : Dev nD) (J : Fin 100000) (b : Fin 1024) :
    (V (F := Ideal) m c main_v0 : S100000x1024.Idx → EReal) (ix2 J b)
      = (m ((c : Thread nD τ).loc main_arg0) : S1024x100000.Idx → EReal) (ix2 b J) := by
  rw [V_main_v0_eq]
  exact transpose_ix2_apply _ _ J b

/-- `[32, 1024]` is `[7, 32, 1024]` with its first axis summed away: the witness that names the inserted index. -/
theorem reduces_S7x32x1024_d0 : S7x32x1024.Reduces [0] S32x1024 := by decide

/-- The index of the `[7, 32, 1024]` array over `(a, b)` with `p` on the summed axis is `(p, a, b)`. -/
theorem lift_d0 (h : S7x32x1024.Reduces [0] S32x1024) (a : Fin 32) (b : Fin 1024) (p : Fin 7) :
    h.lift (ix2 a b) p = ix3 p a b := by
  funext d
  apply Fin.ext
  match d with
  | ⟨0, _⟩ => rfl
  | ⟨1, _⟩ => rfl
  | ⟨2, _⟩ => rfl

/-- The sum over the first axis of a `[7, 32, 1024]` array from the zero constant, at `(a, b)`. -/
theorem reduceAdd_d0_apply (X : S7x32x1024.Idx → EReal) (a : Fin 32) (b : Fin 1024) :
    Host.reduceAdd (F := Ideal) (φ := .f32) X (constant (F := Ideal) S_ .f32 0x00000000#32) reducesTo_S7x32x1024_S32x1024_d0 h_S_ (ix2 a b)
      = 0 + ∑ p : Fin 7, X (ix3 p a b) := by
  refine (hostReduceAdd_apply X _ reducesTo_S7x32x1024_S32x1024_d0 h_S_ (ix2 a b)).trans ?_
  refine (Ideal.hostReduceAdd_single reducesTo_S7x32x1024_S32x1024_d0 reduces_S7x32x1024_d0 X _ (ix2 a b)).trans ?_
  refine congrArg₂ (· + ·) Ideal.ofBits_zero_f32 ?_
  exact Finset.sum_congr rfl fun p _ => congrArg X (lift_d0 reduces_S7x32x1024_d0 a b p)

/-- The program's result after the host operations that follow the region, as one term over the region's output array. -/
theorem tail_eq (dats : (p : Fin 1) → (c : Dev nD) → Pipeline.Dat τ (Elt Ideal) Unit ℕ (UR sig nD τ) ℕ (cfgs p) c) (c : Dev nD) :
    (Pipeline.afterTail₀ cfgs dats 0 (V0 (F := Ideal) m) [hostOps1] c main_v4 : S1024x32.Idx → EReal)
      = transpose S1024x32 [1, 0]
          (Host.reduceAdd (F := Ideal) (φ := .f32) (((dats 0 c).arrAt 2 cfg0.N) : S7x32x1024.Idx → EReal)
            (constant (F := Ideal) S_ .f32 0x00000000#32) reducesTo_S7x32x1024_S32x1024_d0 h_S_)
          transposes_S32x1024_S1024x32_1_0 := by
  unfold Pipeline.afterTail₀
  show StableHlo.after hostOps1 _ (Proc.devRef .tc main_v4) = _
  after_results
  have hw : Pipeline.withArrays (cfgs 0).spec c (V0 (F := Ideal) m c) (fun w => (dats 0 c).arrAt w (cfgs 0).N) (Proc.devRef .tc main_v2)
      = (dats 0 c).arrAt 2 cfg0.N := Pipeline.withArrays_arr spec0 launch0.win.arr_inj c _ _ 2
  rw [hw]

/-- The region's output array (window 2's, the `[7, 32, 1024]` array) as the proof data leave it after the last grid point, at its
    literal type. -/
abbrev outArr (dats : (p : Fin 1) → (c : Dev nD) → Pipeline.Dat τ (Elt Ideal) Unit ℕ (UR sig nD τ) ℕ (cfgs p) c) (c : Dev nD) :
    S7x32x1024.Idx → EReal := (dats 0 c).arrAt 2 cfg0.N

/-- The program's result after the host operations that follow the region, entry by entry: the sum over the first axis of the
    region's output array, from the zero constant, transposed. -/
theorem tail_apply (dats : (p : Fin 1) → (c : Dev nD) → Pipeline.Dat τ (Elt Ideal) Unit ℕ (UR sig nD τ) ℕ (cfgs p) c) (c : Dev nD)
    (b : Fin 1024) (a : Fin 32) :
    (Pipeline.afterTail₀ cfgs dats 0 (V0 (F := Ideal) m) [hostOps1] c main_v4 : S1024x32.Idx → EReal) (ix2 b a)
      = 0 + ∑ p : Fin 7, outArr dats c (ix3 p a b) := by
  rw [tail_eq]
  refine (transpose_ix2_apply _ _ b a).trans ?_
  exact reduceAdd_d0_apply (outArr dats c) a b

/-- The same with the zero constant added away. -/
theorem tail_apply_sum (dats : (p : Fin 1) → (c : Dev nD) → Pipeline.Dat τ (Elt Ideal) Unit ℕ (UR sig nD τ) ℕ (cfgs p) c) (c : Dev nD)
    (b : Fin 1024) (a : Fin 32) :
    (Pipeline.afterTail₀ cfgs dats 0 (V0 (F := Ideal) m) [hostOps1] c main_v4 : S1024x32.Idx → EReal) (ix2 b a)
      = ∑ p : Fin 7, outArr dats c (ix3 p a b) := by
  rw [tail_eq]
  refine (transpose_ix2_apply _ _ b a).trans ?_
  refine (reduceAdd_d0_apply (outArr dats c) a b).trans ?_
  exact zero_add _

/-- The same over whatever the region's output array is known to be. -/
theorem tail_apply_of_eq (dats : (p : Fin 1) → (c : Dev nD) → Pipeline.Dat τ (Elt Ideal) Unit ℕ (UR sig nD τ) ℕ (cfgs p) c) (c : Dev nD)
    (X : S7x32x1024.Idx → EReal) (hX : outArr dats c = X) (b : Fin 1024) (a : Fin 32) :
    (Pipeline.afterTail₀ cfgs dats 0 (V0 (F := Ideal) m) [hostOps1] c main_v4 : S1024x32.Idx → EReal) (ix2 b a)
      = ∑ p : Fin 7, X (ix3 p a b) := by
  subst hX
  exact tail_apply_sum m dats c b a

end Cert.KernelIdeal.Val
end
-- ==== Proof.KI.Blocks.lean ====
/-
  The two zero-continued operand blocks read at an index, at the ideal values. Block t of the contraction axis is
  positions 2048·t ‥ 2048·t + 2047 of the 100000 positions: columns of the [32,100000] operand, rows of the
  [100000,1024] operand. Inside the arrays the zero-continued block is the array's entry there; past position 99999
  (only block 48 reaches that far: its last 352 positions) it is zero.
-/
import proofs.«109520_g74792560493228_cont_9to1c4b_67_8_alg».proof.Proof.KI.Data
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- The [32,100000] operand as the region finds it. -/
abbrev arrMt (c : Dev nD) : S32x100000.Idx → EReal := V (F := Ideal) m c main_v1
/-- The [100000,1024] operand as the region finds it. -/
abbrev arrXt (c : Dev nD) : S100000x1024.Idx → EReal := V (F := Ideal) m c main_v0

/-- Window 0 at point t: block index (0, t); the part inside the array is all 32 rows and the columns left of
    column 100000. -/
theorem idx0 : ∀ t : Fin cfg0.N, win0_0.index t 0 = 0 ∧ win0_0.index t 1 = t.val
    ∧ win0_0.xsize (grid0.coords t) 0 = 32 ∧ win0_0.xsize (grid0.coords t) 1 = min 2048 (100000 - 2048 * t.val) :=
  (by decide +kernel : ∀ t : Fin grid0.N, win0_0.index t 0 = 0 ∧ win0_0.index t 1 = t.val
    ∧ win0_0.xsize (grid0.coords t) 0 = 32 ∧ win0_0.xsize (grid0.coords t) 1 = min 2048 (100000 - 2048 * t.val))

/-- Window 1 at point t: block index (t, 0); the part inside the array is the rows above row 100000 and all 1024
    columns. -/
theorem idx1 : ∀ t : Fin cfg0.N, win0_1.index t 0 = t.val ∧ win0_1.index t 1 = 0
    ∧ win0_1.xsize (grid0.coords t) 0 = min 2048 (100000 - 2048 * t.val) ∧ win0_1.xsize (grid0.coords t) 1 = 1024 :=
  (by decide +kernel : ∀ t : Fin grid0.N, win0_1.index t 0 = t.val ∧ win0_1.index t 1 = 0
    ∧ win0_1.xsize (grid0.coords t) 0 = min 2048 (100000 - 2048 * t.val) ∧ win0_1.xsize (grid0.coords t) 1 = 1024)

/-- The zero word is the extended real 0. -/
theorem zw_eq : (zw (F := Ideal) : EReal) = 0 := Ideal.ofBits_zero_f32

/-- Entry (a, y₁) of window 0's block at point t is entry (a, 2048·t + y₁) of the [32,100000] operand. -/
theorem blk0_at (c : Dev nD) (t : Fin cfg0.N) (y : (win0_0.xblock (grid0.coords t)).Idx) (a : Fin 32) (k : Fin 100000)
    (h0 : (y 0).val = a.val) (h1 : 2048 * t.val + (y 1).val = k.val) :
    iblk m c 0 t y = arrMt m c (ix2 a k) := by
  obtain ⟨e0, e1, -, -⟩ := idx0 t
  show V m c main_v1 (((cfg0.win 0).blk t).view.emb y) = V m c main_v1 (ix2 a k)
  refine congrArg _ ?_
  funext d; apply Fin.ext
  match d with
  | ⟨0, _⟩ => show win0_0.index t 0 * 32 + 1 * (y 0).val = a.val; omega
  | ⟨1, _⟩ => show win0_0.index t 1 * 2048 + 1 * (y 1).val = k.val; omega

/-- Entry (y₀, b) of window 1's block at point t is entry (2048·t + y₀, b) of the [100000,1024] operand. -/
theorem blk1_at (c : Dev nD) (t : Fin cfg0.N) (y : (win0_1.xblock (grid0.coords t)).Idx) (k : Fin 100000) (b : Fin 1024)
    (h0 : 2048 * t.val + (y 0).val = k.val) (h1 : (y 1).val = b.val) :
    iblk m c 1 t y = arrXt m c (ix2 k b) := by
  obtain ⟨e0, e1, -, -⟩ := idx1 t
  show V m c main_v0 (((cfg0.win 1).blk t).view.emb y) = V m c main_v0 (ix2 k b)
  refine congrArg _ ?_
  funext d; apply Fin.ext
  match d with
  | ⟨0, _⟩ => show win0_1.index t 0 * 2048 + 1 * (y 0).val = k.val; omega
  | ⟨1, _⟩ => show win0_1.index t 1 * 1024 + 1 * (y 1).val = b.val; omega

/-- The zero-continued block of the [32,100000] operand at point t: column j is column 2048·t + j of the operand
    where there is one, and zero past the operand's last column. -/
theorem Mz_apply (c : Dev nD) (t : Fin cfg0.N) (a : Fin 32) (j : Fin 2048) :
    Mz (F := Ideal) m c t (ix2 a j)
      = if h : 2048 * t.val + j.val < 100000 then arrMt m c (ix2 a ⟨2048 * t.val + j.val, h⟩) else 0 := by
  obtain ⟨e0, e1, x0, x1⟩ := idx0 t
  unfold Mz Pipeline.Window.fill
  by_cases hm : win0_0.moved (grid0.coords t) (ix2 a j) = true
  · have h := (win0_0.moved_iff _ _).mp hm 1
    rw [x1] at h
    have hj : 2048 * t.val + j.val < 100000 := by
      have : ((ix2 a j : S32x2048.Idx) 1).val = j.val := rfl
      omega
    rw [dif_pos hm, dif_pos hj]
    exact blk0_at m c t _ a ⟨_, hj⟩ rfl rfl
  · have hj : ¬ 2048 * t.val + j.val < 100000 := fun hlt => hm ((win0_0.moved_iff _ _).mpr fun d => by
      match d with
      | ⟨0, _⟩ => exact lt_of_lt_of_eq a.isLt x0.symm
      | ⟨1, _⟩ => exact lt_of_lt_of_eq (show j.val < min 2048 (100000 - 2048 * t.val) by have := j.isLt; omega) x1.symm)
    rw [dif_neg hm, dif_neg hj]
    exact zw_eq

/-- The zero-continued block of the [100000,1024] operand at point t: row j is row 2048·t + j of the operand where
    there is one, and zero past the operand's last row. -/
theorem Xz_apply (c : Dev nD) (t : Fin cfg0.N) (j : Fin 2048) (b : Fin 1024) :
    Xz (F := Ideal) m c t (ix2 j b)
      = if h : 2048 * t.val + j.val < 100000 then arrXt m c (ix2 ⟨2048 * t.val + j.val, h⟩ b) else 0 := by
  obtain ⟨e0, e1, x0, x1⟩ := idx1 t
  unfold Xz Pipeline.Window.fill
  by_cases hm : win0_1.moved (grid0.coords t) (ix2 j b) = true
  · have h := (win0_1.moved_iff _ _).mp hm 0
    rw [x0] at h
    have hj : 2048 * t.val + j.val < 100000 := by
      have : ((ix2 j b : S2048x1024.Idx) 0).val = j.val := rfl
      omega
    rw [dif_pos hm, dif_pos hj]
    exact blk1_at m c t _ ⟨_, hj⟩ b rfl rfl
  · have hj : ¬ 2048 * t.val + j.val < 100000 := fun hlt => hm ((win0_1.moved_iff _ _).mpr fun d => by
      match d with
      | ⟨0, _⟩ => exact lt_of_lt_of_eq (show j.val < min 2048 (100000 - 2048 * t.val) by have := j.isLt; omega) x0.symm
      | ⟨1, _⟩ => exact lt_of_lt_of_eq b.isLt x1.symm)
    rw [dif_neg hm, dif_neg hj]
    exact zw_eq

end Cert.KernelIdeal.Val

end
-- ==== Proof.KI.Array.lean ====
/-
  The output array after the run, entry by entry. Output window 2 covers the [7, 32, 1024] array by seven
  [1, 32, 1024] blocks; block p is written back once, at point 7 * p + 6, with what the output's staging buffer
  then holds, `acc` at that point; the window is never cut. So after the run the array holds at (p, a, b) the
  entry (0, a, b) of `acc` at point 7 * p + 6.
-/
import proofs.«109520_g74792560493228_cont_9to1c4b_67_8_alg».proof.Proof.KI.Data
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx
open Idealize.SL.Sem
open Idealize.ShloMosaic.Pipeline (Dat Cfg Window)

variable {F : FTy → Type} [FloatOps F] (m : (ℓ : Loc nD τ sig) → Buf (Elt F) ℓ)

/-- the point that writes block `p` back -/
def tp (p : Fin 7) : Fin cfg0.N := ⟨7 * p.val + 6, by have := p.isLt; have h : cfg0.N = 49 := N_0; omega⟩

/-- the output window's block index over the grid: the slow grid coordinate on the first axis, zero on the others -/
theorem idx2 : ∀ t : Fin cfg0.N, win0_2.index t 0 = t.val / 7 ∧ win0_2.index t 1 = 0 ∧ win0_2.index t 2 = 0 :=
  (by decide +kernel : ∀ t : Fin grid0.N, win0_2.index t 0 = t.val / 7 ∧ win0_2.index t 1 = 0 ∧ win0_2.index t 2 = 0)

/-- what the output's staging buffer holds after the body at point `t` -/
def accP (c : Dev nD) (t : Fin cfg0.N) : S1x32x1024.Idx → Elt F .f32 := acc m c t.val t.isLt

/-- the whole array after the run, entry by entry -/
def G (c : Dev nD) : S7x32x1024.Idx → Elt F .f32 :=
  fun i => accP m c (tp ⟨(i 0).val, (i 0).isLt⟩) (ix3 (0 : Fin 1) (⟨(i 1).val, (i 1).isLt⟩ : Fin 32) (⟨(i 2).val, (i 2).isLt⟩ : Fin 1024))

/-- an index of the array is in the block of point `t` iff each coordinate is in the block's range on its axis -/
theorem mem_blk2 (t : Fin cfg0.N) (i : S7x32x1024.Idx) :
    i ∈ ((cfg0.win 2).blk t).view.set ↔ ∀ a : Fin 3, win0_2.index t a * S1x32x1024.size a ≤ (i a).val ∧ (i a).val < win0_2.index t a * S1x32x1024.size a + S1x32x1024.size a := by
  show i ∈ ((View.whole main_v2).slice (win0_2.rect t)).set ↔ _
  rw [View.set_slice_whole, Rect.mem_set_unit]
  exact Iff.rfl

/-- every index of the array lies in the block of the point that writes its first coordinate's block back -/
theorem cover2 (i : S7x32x1024.Idx) :
    ∃ t : Fin cfg0.N, (cfg0.win 2).flush t = true ∧ i ∈ ((cfg0.win 2).blk t).view.set := by
  have h0 : (i 0).val < 7 := (i 0).isLt
  have h1 : (i 1).val < 32 := (i 1).isLt
  have h2 : (i 2).val < 1024 := (i 2).isLt
  have hv : (tp ⟨(i 0).val, h0⟩).val = 7 * (i 0).val + 6 := rfl
  refine ⟨tp ⟨(i 0).val, h0⟩, (flush0_2 _).mpr (by rw [hv]; omega), ?_⟩
  rw [mem_blk2]
  obtain ⟨e0, e1, e2⟩ := idx2 (tp ⟨(i 0).val, h0⟩)
  rw [hv] at e0
  intro a
  match a with
  | ⟨0, _⟩ =>
    show win0_2.index (tp ⟨(i 0).val, h0⟩) 0 * 1 ≤ (i 0).val ∧ (i 0).val < win0_2.index (tp ⟨(i 0).val, h0⟩) 0 * 1 + 1
    rw [e0]; omega
  | ⟨1, _⟩ =>
    show win0_2.index (tp ⟨(i 0).val, h0⟩) 1 * 32 ≤ (i 1).val ∧ (i 1).val < win0_2.index (tp ⟨(i 0).val, h0⟩) 1 * 32 + 32
    rw [e1]; omega
  | ⟨2, _⟩ =>
    show win0_2.index (tp ⟨(i 0).val, h0⟩) 2 * 1024 ≤ (i 2).val ∧ (i 2).val < win0_2.index (tp ⟨(i 0).val, h0⟩) 2 * 1024 + 1024
    rw [e2]; omega

/-- `G` read at an index whose first coordinate's writing point is `t` -/
theorem G_apply (c : Dev nD) (i : S7x32x1024.Idx) (t : Fin cfg0.N) (j : S1x32x1024.Idx)
    (h0 : 7 * (i 0).val + 6 = t.val) (h1 : (i 1).val = (j 1).val) (h2 : (i 2).val = (j 2).val) :
    G m c i = acc m c t.val t.isLt j := by
  have et : tp ⟨(i 0).val, (i 0).isLt⟩ = t := Fin.ext h0
  subst et
  have j0 : (j 0).val < 1 := (j 0).isLt
  have ej : ix3 (0 : Fin 1) (⟨(i 1).val, (i 1).isLt⟩ : Fin 32) (⟨(i 2).val, (i 2).isLt⟩ : Fin 1024) = j := by
    funext a
    apply Fin.ext
    match a with
    | ⟨0, _⟩ => show 0 = (j 0).val; omega
    | ⟨1, _⟩ => exact h1
    | ⟨2, _⟩ => exact h2
  exact congrArg (accP m c (tp ⟨(i 0).val, (i 0).isLt⟩)) ej

/-- what a writing point writes back is its block of `G` -/
theorem flushed2_eq (c : Dev nD) (t : Fin cfg0.N) (hf : (cfg0.win 2).flush t = true) :
    (dats m 0 c).flushed 2 t = ((cfg0.win 2).blk t).view.read (Elt F) (G m c) := by
  have ht : t.val % 7 = 6 := (flush0_2 t).mp hf
  have hN : t.val < 49 := lt_of_lt_of_eq t.isLt (show cfg0.N = 49 from N_0)
  obtain ⟨e0, e1, e2⟩ := idx2 t
  funext y
  show (dats m 0 c).after 2 t (win0_2.xinj (grid0.coords t) y) = _
  rw [after_2, View.read_apply, cast_eq]
  have y0 : (y 0).val < 1 := (y 0).isLt
  have v0 : (((cfg0.win 2).blk t).view.emb y 0 : Nat) = t.val / 7 := by
    have := win0_2.rect_emb_val t y 0
    rw [e0] at this
    show ((win0_2.rect t).emb y 0 : Nat) = _
    rw [this]; show t.val / 7 * 1 + (y 0).val = _; omega
  have v1 : (((cfg0.win 2).blk t).view.emb y 1 : Nat) = (y 1).val := win0_2.rect_emb_val_of_index_zero t 1 e1 y
  have v2 : (((cfg0.win 2).blk t).view.emb y 2 : Nat) = (y 2).val := win0_2.rect_emb_val_of_index_zero t 2 e2 y
  exact (G_apply m c _ t _ (by rw [v0]; omega) v1 v2).symm

/-- the output array after the run -/
theorem arr2_eq (c : Dev nD) : (dats m 0 c).arrAt 2 cfg0.N = G m c :=
  (dats m 0 c).arrAt_eq_of_cover 2 (G m c) (flushed2_eq m c) cover2

/-- entry (p, a, b) of the output array after the run is entry (0, a, b) of `acc` at point 7 * p + 6 -/
theorem arr2_apply (c : Dev nD) (p : Fin 7) (a : Fin 32) (b : Fin 1024) :
    (((dats m 0 c).arrAt 2 cfg0.N) : S7x32x1024.Idx → Elt F .f32) (ix3 p a b)
      = (acc m c (tp p).val (tp p).isLt : S1x32x1024.Idx → Elt F .f32) (ix3 (0 : Fin 1) a b) := by
  rw [arr2_eq]; rfl

end Cert.KernelIdeal.Val

end
-- ==== Proof.Sums.lean ====
import Mathlib.Data.EReal.Basic
import Mathlib.Algebra.BigOperators.Fin
import Mathlib.Algebra.BigOperators.Group.Finset.Basic

/-!
# Blocked sums over the extended reals

A sum of 100000 extended-real terms, computed as 7 × 7 blocks of 2048 terms
(the sequence being continued by zero past its range), equals the plain sum.
Addition in `EReal` is commutative and associative, so only the laws of an
additive commutative monoid are used.
-/

open Finset

noncomputable section

namespace Cert.Sums

/-- A double sum over `a` rows of `b` consecutive terms is the sum of the first `a * b` terms. -/
theorem sum_range_rows {M : Type*} [AddCommMonoid M] (g : ℕ → M) (b : ℕ) :
    ∀ a : ℕ, (∑ i ∈ range a, ∑ j ∈ range b, g (b * i + j)) = ∑ n ∈ range (a * b), g n
  | 0 => by rw [Nat.zero_mul, sum_range_zero, sum_range_zero]
  | a + 1 => by
      rw [sum_range_succ, sum_range_rows g b a, Nat.succ_mul, sum_range_add, Nat.mul_comm b a]

/-- `u` continued by zero past its range. -/
def pad (u : Fin 100000 → EReal) (n : ℕ) : EReal := if h : n < 100000 then u ⟨n, h⟩ else 0

/-- inside the range the continuation is `u` itself -/
theorem pad_val (u : Fin 100000 → EReal) (J : Fin 100000) : pad u J.val = u J := by
  unfold pad
  rw [dif_pos J.isLt]

/-- past the range the continuation is zero -/
theorem pad_past (u : Fin 100000 → EReal) (x : ℕ) : pad u (100000 + x) = 0 := by
  unfold pad
  rw [dif_neg (by omega)]

/-- the first 100352 = 100000 + 352 padded terms add up to the whole sum -/
theorem sum_pad (u : Fin 100000 → EReal) :
    (∑ n ∈ range 100352, pad u n) = ∑ J : Fin 100000, u J := by
  have h : (100352 : ℕ) = 100000 + 352 := by norm_num
  rw [h, sum_range_add, sum_eq_zero (fun x _ => pad_past u x), add_zero,
    Finset.sum_range (fun n => pad u n)]
  exact Fintype.sum_congr _ _ (pad_val u)

/-- the 7 × 7 blocks of 2048 padded terms add up to the whole sum -/
theorem sum_blocks (u : Fin 100000 → EReal) :
    (∑ p : Fin 7, ∑ kk : Fin 7, ∑ j : Fin 2048, pad u (2048 * (7 * p.val + kk.val) + j.val))
      = ∑ J : Fin 100000, u J := by
  -- every sum over `Fin` is a sum over an initial segment of the naturals
  have e3 : ∀ m : ℕ, (∑ j : Fin 2048, pad u (2048 * m + j.val))
      = ∑ j ∈ range 2048, pad u (2048 * m + j) :=
    fun m => (Finset.sum_range (fun j => pad u (2048 * m + j))).symm
  have e2 : ∀ p : ℕ, (∑ kk : Fin 7, ∑ j ∈ range 2048, pad u (2048 * (7 * p + kk.val) + j))
      = ∑ kk ∈ range 7, ∑ j ∈ range 2048, pad u (2048 * (7 * p + kk) + j) :=
    fun p => (Finset.sum_range
      (fun kk => ∑ j ∈ range 2048, pad u (2048 * (7 * p + kk) + j))).symm
  have e1 : (∑ p : Fin 7, ∑ kk ∈ range 7, ∑ j ∈ range 2048, pad u (2048 * (7 * p.val + kk) + j))
      = ∑ p ∈ range 7, ∑ kk ∈ range 7, ∑ j ∈ range 2048, pad u (2048 * (7 * p + kk) + j) :=
    (Finset.sum_range
      (fun p => ∑ kk ∈ range 7, ∑ j ∈ range 2048, pad u (2048 * (7 * p + kk) + j))).symm
  calc (∑ p : Fin 7, ∑ kk : Fin 7, ∑ j : Fin 2048,
          pad u (2048 * (7 * p.val + kk.val) + j.val))
      = ∑ p : Fin 7, ∑ kk : Fin 7, ∑ j ∈ range 2048,
          pad u (2048 * (7 * p.val + kk.val) + j) :=
        Fintype.sum_congr _ _ (fun p => Fintype.sum_congr _ _ (fun kk => e3 (7 * p.val + kk.val)))
    _ = ∑ p : Fin 7, ∑ kk ∈ range 7, ∑ j ∈ range 2048,
          pad u (2048 * (7 * p.val + kk) + j) :=
        Fintype.sum_congr _ _ (fun p => e2 p.val)
    _ = ∑ p ∈ range 7, ∑ kk ∈ range 7, ∑ j ∈ range 2048,
          pad u (2048 * (7 * p + kk) + j) := e1
    _ = ∑ m ∈ range (7 * 7), ∑ j ∈ range 2048, pad u (2048 * m + j) :=
        sum_range_rows (fun m => ∑ j ∈ range 2048, pad u (2048 * m + j)) 7 7
    _ = ∑ n ∈ range (7 * 7 * 2048), pad u n := sum_range_rows (pad u) 2048 (7 * 7)
    _ = ∑ J : Fin 100000, u J := sum_pad u

/-- a running sum started at zero: if `acc 0 = 0 + s 0` and `acc (n+1) = acc n + s (n+1)`
then `acc n` is the sum of `s` over `0..n` -/
theorem running_sum (s acc : ℕ → EReal) (h0 : acc 0 = 0 + s 0)
    (hs : ∀ n, acc (n + 1) = acc n + s (n + 1)) (n : ℕ) :
    acc n = ∑ k ∈ Finset.range (n + 1), s k := by
  induction n with
  | zero => rw [h0, zero_add, Nat.zero_add, sum_range_one]
  | succ n ih => rw [hs, ih, sum_range_succ s (n + 1)]

/-- the same running sum over exactly seven steps, as a sum over `Fin 7` -/
theorem running_sum_seven (s acc : ℕ → EReal) (h0 : acc 0 = 0 + s 0)
    (hs : ∀ n, acc (n + 1) = acc n + s (n + 1)) :
    acc 6 = ∑ kk : Fin 7, s kk.val :=
  (running_sum s acc h0 hs 6).trans (Finset.sum_range s)

end Cert.Sums
-- ==== Proof.KI.Result.lean ====
/-
  The kernel program's result, entry by entry. The host sums the seven output blocks over p and transposes, each
  block is the running sum of its run's seven addends, and each addend is the dot product of two zero-continued
  operand blocks of 2048 positions: 7 × 7 × 2048 terms, of which the ones past position 99999 are products of zeros.
  Regrouped (the extended reals' addition is commutative and associative; no finiteness is needed) they are the one
  sum over the 100000 positions of the contraction axis; the operands the region finds are the transposed
  arguments, and the product commutes: entry (b, a) is the sum over J of x[b, J] * m[J, a], the reference's
  dot product.
-/
import proofs.«109520_g74792560493228_cont_9to1c4b_67_8_alg».proof.Proof.KI.Acc
import proofs.«109520_g74792560493228_cont_9to1c4b_67_8_alg».proof.Proof.KI.Host
import proofs.«109520_g74792560493228_cont_9to1c4b_67_8_alg».proof.Proof.KI.Blocks
import proofs.«109520_g74792560493228_cont_9to1c4b_67_8_alg».proof.Proof.KI.Array
import proofs.«109520_g74792560493228_cont_9to1c4b_67_8_alg».proof.Proof.Sums
import proofs.«109520_g74792560493228_cont_9to1c4b_67_8_alg».proof.Proof.Gen.ReferenceIdeal.Read
import Idealize.ShloMosaic.Lib.ValueIdx

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-- The two arguments and the program's result, as arrays of extended reals. -/
abbrev argX (c : Dev nD) : S1024x100000.Idx → EReal := m ((c : Thread nD τ).loc main_arg0)
abbrev argM (c : Dev nD) : S100000x32.Idx → EReal := m ((c : Thread nD τ).loc main_arg1)
abbrev resArr (c : Dev nD) : S1024x32.Idx → EReal :=
  Pipeline.afterTail₀ cfgs (dats (F := Ideal) m) 0 (V0 (F := Ideal) m) [hostOps1] c main_v4

/-- The term of the whole contraction for output entry (b, a), at position `J`: over the arrays the region finds. -/
def term (c : Dev nD) (a : Fin 32) (b : Fin 1024) (J : Fin 100000) : EReal :=
  arrMt m c (ix2 a J) * arrXt m c (ix2 J b)

/-- A point's addend is its 2048 terms of the zero-continued contraction. -/
theorem addendN_eq (c : Dev nD) (a : Fin 32) (b : Fin 1024) (n : ℕ) (hn : n < 49) :
    addendN m c a b n = ∑ j : Fin 2048, Cert.Sums.pad (term m c a b) (2048 * n + j.val) := by
  have hN : n < cfg0.N := lt_of_lt_of_eq hn grid_N.symm
  unfold addendN; rw [dif_pos hN]; unfold addend
  refine Finset.sum_congr rfl fun j _ => ?_
  rw [Mz_apply, Xz_apply]; unfold Cert.Sums.pad
  by_cases h : 2048 * n + j.val < 100000
  · rw [dif_pos h, dif_pos h, dif_pos h]; rfl
  · rw [dif_neg h, dif_neg h, dif_neg h, mul_zero]

/-- The output array's entries, summed over the seven blocks, are the whole contraction. -/
theorem blocks_sum (c : Dev nD) (a : Fin 32) (b : Fin 1024) :
    (∑ p : Fin 7, outArr (dats (F := Ideal) m) c (ix3 p a b)) = ∑ J : Fin 100000, term m c a b J := by
  rw [← Cert.Sums.sum_blocks (term m c a b)]
  refine Finset.sum_congr rfl fun p _ => ?_
  have hp := p.isLt
  refine (arr2_apply m c p a b).trans ?_
  refine (acc_apply m c p a b (tp p).isLt).trans ?_
  refine Finset.sum_congr rfl fun kk _ => ?_
  have hk := kk.isLt
  exact addendN_eq m c a b (7 * p.val + kk.val) (by omega)

/-- The kernel program's result at (b, a): the dot product of row `b` of `x` with column `a` of `m`. -/
theorem result_apply (c : Dev nD) (b : Fin 1024) (a : Fin 32) :
    resArr m c (ix2 b a) = ∑ J : Fin 100000, argX m c (ix2 b J) * argM m c (ix2 J a) := by
  have e : resArr m c (ix2 b a) = ∑ p : Fin 7, outArr (dats (F := Ideal) m) c (ix3 p a b) :=
    tail_apply_sum m (dats (F := Ideal) m) c b a
  rw [e, blocks_sum]
  refine Finset.sum_congr rfl fun J _ => ?_
  have e1 : arrMt m c (ix2 a J) = argM m c (ix2 J a) := V_main_v1_apply m c a J
  have e0 : arrXt m c (ix2 J b) = argX m c (ix2 b J) := V_main_v0_apply m c J b
  unfold term; rw [e1, e0, mul_comm]

/-- The kernel program's result is the reference's stage of the two arguments. -/
theorem result_eq (c : Dev nD) :
    resArr m c = Cert.ReferenceIdeal.Read.val_main_v0 (F := Ideal) (argX m c) (argM m c) := by
  funext i
  obtain ⟨b, a, rfl⟩ : ∃ (b : Fin 1024) (a : Fin 32), i = ix2 b a := ⟨i 0, i 1, eq_ix2 i⟩
  rw [result_apply]
  refine ((Cert.ReferenceIdeal.Read.val_main_v0_apply (argX m c) (argM m c) (ix2 b a)).trans ?_).symm
  refine Finset.sum_congr rfl fun J _ => ?_
  have el : Cert.ReferenceIdeal.Read.lidx_main_v0 (ix2 b a) J = ix2 b J :=
    funext fun d => Fin.ext (by match d with | ⟨0, _⟩ => rfl | ⟨1, _⟩ => rfl)
  have er : Cert.ReferenceIdeal.Read.ridx_main_v0 (ix2 b a) J = ix2 J a :=
    funext fun d => Fin.ext (by match d with | ⟨0, _⟩ => rfl | ⟨1, _⟩ => rfl)
  rw [el, er]

end Cert.KernelIdeal.Val

end
-- ==== Proof.lean ====
/-
  The certificate of a blocked matrix product against jnp.dot. The reference computes out[b, a] as the sum over the
  100000 positions J of x[b, J] * m[J, a]. The kernel transposes both arguments, cuts the contraction axis into 49
  blocks of 2048 positions (the last one holds 1696 positions of the arrays and runs 352 past their end), and on a
  7 × 7 grid accumulates, for each p, the products of blocks 7 * p … 7 * p + 6 into output block p; the host then
  sums the seven blocks and transposes back. At the last block the kernel replaces both operands past position 1696
  by zero, so what the staging buffers hold past the arrays' end never reaches a result. Over the extended reals
  the 7 × 7 × 2048 terms, the padding ones products of zeros, regroup into the reference's one sum (addition is
  commutative and associative; multiplication commutes): the two programs agree on every input, and the
  precondition is not used.
  The frames of the two kernel programs come from one text, generic in the float instance: the proof data name what
  every staging buffer holds after each grid point, the body is run once per control case (reset and add; add;
  masked add), and the run is the library's frame run around the region. The reference's frame and value are its
  generated run.
-/
import proofs.«109520_g74792560493228_cont_9to1c4b_67_8_alg».proof.Defs
import proofs.«109520_g74792560493228_cont_9to1c4b_67_8_alg».proof.Proof.Gen.Kernel
import proofs.«109520_g74792560493228_cont_9to1c4b_67_8_alg».proof.Proof.Gen.KernelIdeal
import proofs.«109520_g74792560493228_cont_9to1c4b_67_8_alg».proof.Proof.Gen.ReferenceIdeal
import proofs.«109520_g74792560493228_cont_9to1c4b_67_8_alg».proof.Proof.Gen.Pre_finite_inputs
import proofs.«109520_g74792560493228_cont_9to1c4b_67_8_alg».proof.Proof.Gen.ReferenceIdeal.Run
import proofs.«109520_g74792560493228_cont_9to1c4b_67_8_alg».proof.Proof.Gen.ReferenceIdeal.Read
import proofs.«109520_g74792560493228_cont_9to1c4b_67_8_alg».proof.Proof.K.Data
import proofs.«109520_g74792560493228_cont_9to1c4b_67_8_alg».proof.Proof.KI.Data
import proofs.«109520_g74792560493228_cont_9to1c4b_67_8_alg».proof.Proof.KI.Result
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

open Cert.KernelIdeal Cert.KernelIdeal.Gen Cert.KernelIdeal.Body Cert.KernelIdeal.Val in
/-- Both programs end with the result array at the reference's dot product of the two arguments. -/
theorem algebraic : Cert.algebraic_KernelIdeal_ReferenceIdeal := by
  intro m ρ m' ρ' _ hagree
  refine ⟨fun c => Pipeline.afterTail₀ cfgs (dats (F := Ideal) m) 0 (V0 (F := Ideal) m) [hostOps1] c main_v4, ?_, ?_⟩
  · exact (θ_run defs _ _).mono (fun _ h c =>
      ⟨(h c).2 main_v4 (Pipeline.mem_restRefs_of main_v4 (by decide) (by decide)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
      (run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
